-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S32768x512 .f32) (main_arg1 : FVec F S512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S32768x512 : Shape := ⟨2, ![32768, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S16 : Shape := ⟨1, ![16]⟩
abbrev S1x16 : Shape := ⟨2, ![1, 16]⟩
abbrev S512x16 : Shape := ⟨2, ![512, 16]⟩
abbrev S32 : Shape := ⟨1, ![32]⟩
abbrev S1x32 : Shape := ⟨2, ![1, 32]⟩
abbrev S512x32 : Shape := ⟨2, ![512, 32]⟩
abbrev S32768x32 : Shape := ⟨2, ![32768, 32]⟩
abbrev S2048x512 : Shape := ⟨2, ![2048, 512]⟩
abbrev S2048x32 : Shape := ⟨2, ![2048, 32]⟩
abbrev S2048x16 : Shape := ⟨2, ![2048, 16]⟩
abbrev S2048 : Shape := ⟨1, ![2048]⟩
abbrev S2048x1 : Shape := ⟨2, ![2048, 1]⟩

abbrev nBuf : Space → Nat
  | .hbm => 58
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S512x512, .f32⟩
  | .hbm, ⟨2, _⟩ => ⟨S512, .i32⟩
  | .hbm, ⟨3, _⟩ => ⟨S_, .i32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i1⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S_, .i32⟩
  | .hbm, ⟨36, _⟩ => ⟨S_, .i1⟩
  | .hbm, ⟨37, _⟩ => ⟨S512, .i1⟩
  | .hbm, ⟨38, _⟩ => ⟨S512, .i1⟩
  | .hbm, ⟨39, _⟩ => ⟨S512, .i1⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S512x1, .i32⟩
  | .hbm, ⟨44, _⟩ => ⟨S16, .i32⟩
  | .hbm, ⟨45, _⟩ => ⟨S1x16, .i32⟩
  | .hbm, ⟨46, _⟩ => ⟨S512x16, .i32⟩
  | .hbm, ⟨47, _⟩ => ⟨S512x16, .i32⟩
  | .hbm, ⟨48, _⟩ => ⟨S512x16, .i1⟩
  | .hbm, ⟨49, _⟩ => ⟨S512x16, .f32⟩
  | .hbm, ⟨50, _⟩ => ⟨S512x1, .i32⟩
  | .hbm, ⟨51, _⟩ => ⟨S32, .i32⟩
  | .hbm, ⟨52, _⟩ => ⟨S1x32, .i32⟩
  | .hbm, ⟨53, _⟩ => ⟨S512x32, .i32⟩
  | .hbm, ⟨54, _⟩ => ⟨S512x32, .i32⟩
  | .hbm, ⟨55, _⟩ => ⟨S512x32, .i1⟩
  | .hbm, ⟨56, _⟩ => ⟨S512x32, .f32⟩
  | .hbm, ⟨57, _⟩ => ⟨S32768x32, .f32⟩
  | .local _ .vmem, ⟨0, _⟩ => ⟨S2048x512, .f32⟩
  | .local _ .vmem, ⟨1, _⟩ => ⟨S2048x512, .f32⟩
  | .local _ .vmem, ⟨2, _⟩ => ⟨S512x512, .f32⟩
  | .local _ .vmem, ⟨3, _⟩ => ⟨S512x16, .f32⟩
  | .local _ .vmem, ⟨4, _⟩ => ⟨S512x32, .f32⟩
  | .local _ .vmem, ⟨5, _⟩ => ⟨S2048x32, .f32⟩
  | .local _ .vmem, ⟨6, _⟩ => ⟨S2048x32, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_c_0 : Ref sig .tc := ⟨.hbm, 21, rfl⟩
abbrev main_call1_v0 : Ref sig .tc := ⟨.hbm, 22, rfl⟩
abbrev main_call1_c : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_v5 : Ref sig .tc := ⟨.hbm, 30, rfl⟩
abbrev main_call1_v6 : Ref sig .tc := ⟨.hbm, 31, rfl⟩
abbrev main_call1_c_2 : Ref sig .tc := ⟨.hbm, 32, rfl⟩
abbrev main_call1_v7 : Ref sig .tc := ⟨.hbm, 33, rfl⟩
abbrev main_call1_v8 : Ref sig .tc := ⟨.hbm, 34, rfl⟩
abbrev main_call1_c_3 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c3_i32 : BitVec 32 := 3#32
  let v13 : BitVec 32 := Scalar.addi c0_i32 c3_i32
  let c1_i32 : BitVec 32 := 1#32
  ⟨c0_i32, v13, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512 : S_.BroadcastsInDim S512 (![] : Fin 0 → Fin S512.rank)
  bcast_S512_S512x1_0 : S512.BroadcastsInDim S512x1 (![0] : Fin 1 → Fin S512x1.rank)
  bcast_S16_S1x16_1 : S16.BroadcastsInDim S1x16 (![1] : Fin 1 → Fin S1x16.rank)
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  bcast_S32_S1x32_1 : S32.BroadcastsInDim S1x32 (![1] : Fin 1 → Fin S1x32.rank)
  bcast_S512x1_S512x32_0_1 : S512x1.BroadcastsInDim S512x32 (![0, 1] : Fin 2 → Fin S512x32.rank)
  bcast_S1x32_S512x32_0_1 : S1x32.BroadcastsInDim S512x32 (![0, 1] : Fin 2 → Fin S512x32.rank)
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S512x32_S512x32_0_0 : ∀ a, (![0, 0] : Fin 2 → Nat) a + S512x32.size a ≤ S512x32.size a
  h_S512x32 : 0 < S512x32.numel
  shapeCasts_S512x32_S512x32 : S512x32.ShapeCasts S512x32
  reduces_S2048x16_S2048 : S2048x16.Reduces [1] S2048
  shapeCasts_S2048_S2048x1 : S2048.ShapeCasts S2048x1
  broadcasts_S2048x1_S2048x16 : S2048x1.Broadcasts S2048x16
  reduces_S2048x32_S2048 : S2048x32.Reduces [1] S2048
  broadcasts_S2048x1_S2048x32 : S2048x1.Broadcasts S2048x32
  inb_S2048x32_S2048x32_0_0 : ∀ a, (![0, 0] : Fin 2 → Nat) a + S2048x32.size a ≤ S2048x32.size a
  h_S2048x32 : 0 < S2048x32.numel
  dot_S2048x512_S512x512_S2048x512_1_0_0_1_n_n_wf : DotDims.WF S2048x512 S512x512 S2048x512 [1] [0] [0] [1] [] []
  dot_S2048x16_S512x16_S2048x512_1_1_0_0_n_n_wf : DotDims.WF S2048x16 S512x16 S2048x512 [1] [1] [0] [0] [] []
  dot_S2048x512_S512x32_S2048x32_1_0_0_1_n_n_wf : DotDims.WF S2048x512 S512x32 S2048x32 [1] [0] [0] [1] [] []
  dot_S2048x32_S512x32_S2048x512_1_1_0_0_n_n_wf : DotDims.WF S2048x32 S512x32 S2048x512 [1] [1] [0] [0] [] []
  dot_S2048x512_S512x16_S2048x16_1_0_0_1_n_n_wf : DotDims.WF S2048x512 S512x16 S2048x16 [1] [0] [0] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S512x16.size a
  hwx0_2 : ∀ i : grid0.Coords, EltTy.bits .f32 = 32 ∨ (Rect.block (s := S512x16) S512x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x32.size a ≤ S32768x32.size a
  hwx0_4 : ∀ i : grid0.Coords, EltTy.bits .f32 = 32 ∨ (Rect.block (s := S32768x32) S2048x32.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x16_S512x16_S2048x512_1_1_0_0_n_n : DotDims S2048x16 S512x16 S2048x512 where
  lhsContracting := [1]
  rhsContracting := [1]
  lhsNonContracting := [0]
  rhsNonContracting := [0]
  lhsBatch := []
  rhsBatch := []
  wf := dot_S2048x16_S512x16_S2048x512_1_1_0_0_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S512x32_S2048x512_1_1_0_0_n_n : DotDims S2048x32 S512x32 S2048x512 where
  lhsContracting := [1]
  rhsContracting := [1]
  lhsNonContracting := [0]
  rhsNonContracting := [0]
  lhsBatch := []
  rhsBatch := []
  wf := dot_S2048x32_S512x32_S2048x512_1_1_0_0_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S512x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S2048x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S32768x16x32 : Shape := ⟨3, ![32768, 16, 32]⟩
abbrev S_ : Shape := ⟨0, ![]⟩
abbrev S32768x16 : Shape := ⟨2, ![32768, 16]⟩
abbrev S32768 : Shape := ⟨1, ![32768]⟩
abbrev S32768x1 : Shape := ⟨2, ![32768, 1]⟩
abbrev S32768x16x1 : Shape := ⟨3, ![32768, 16, 1]⟩
abbrev S32768x32 : Shape := ⟨2, ![32768, 32]⟩
abbrev S32768x1x32 : Shape := ⟨3, ![32768, 1, 32]⟩

abbrev nBuf : Space → Nat
  | .hbm => 129
  | .vmem => 0
  | .smem => 0
  | _ => 0

abbrev hbmTy0_0 (i : Nat) : BufTy := match i % 128 with
  | 0 => ⟨S32768x512, .f32⟩
  | 1 => ⟨S512x512, .f32⟩
  | 2 => ⟨S32768x512, .f32⟩
  | 3 => ⟨S32768x16x32, .f32⟩
  | 4 => ⟨S_, .f32⟩
  | 5 => ⟨S32768x16, .f32⟩
  | 6 => ⟨S_, .f32⟩
  | 7 => ⟨S32768, .f32⟩
  | 8 => ⟨S_, .f32⟩
  | 9 => ⟨S32768, .f32⟩
  | 10 => ⟨S32768, .f32⟩
  | 11 => ⟨S32768x1, .f32⟩
  | 12 => ⟨S32768x16, .f32⟩
  | 13 => ⟨S32768x16, .f32⟩
  | 14 => ⟨S32768x16, .f32⟩
  | 15 => ⟨S_, .f32⟩
  | 16 => ⟨S32768, .f32⟩
  | 17 => ⟨S32768x1, .f32⟩
  | 18 => ⟨S32768x16, .f32⟩
  | 19 => ⟨S32768x16, .f32⟩
  | 20 => ⟨S32768x16x1, .f32⟩
  | 21 => ⟨S32768x16x32, .f32⟩
  | 22 => ⟨S32768x16x32, .f32⟩
  | 23 => ⟨S_, .f32⟩
  | 24 => ⟨S32768x32, .f32⟩
  | 25 => ⟨S32768x32, .f32⟩
  | 26 => ⟨S_, .f32⟩
  | 27 => ⟨S32768, .f32⟩
  | 28 => ⟨S32768x1, .f32⟩
  | 29 => ⟨S_, .f32⟩
  | 30 => ⟨S32768x1, .f32⟩
  | 31 => ⟨S32768x1, .f32⟩
  | 32 => ⟨S32768x1, .f32⟩
  | 33 => ⟨S32768x32, .f32⟩
  | 34 => ⟨S32768x32, .f32⟩
  | 35 => ⟨S32768x1, .f32⟩
  | 36 => ⟨S_, .f32⟩
  | 37 => ⟨S32768x1, .f32⟩
  | 38 => ⟨S32768x1, .f32⟩
  | 39 => ⟨S32768x32, .f32⟩
  | 40 => ⟨S32768x32, .f32⟩
  | 41 => ⟨S32768x1x32, .f32⟩
  | 42 => ⟨S32768x16x32, .f32⟩
  | 43 => ⟨S32768x16x32, .f32⟩
  | 44 => ⟨S_, .f32⟩
  | 45 => ⟨S32768x16, .f32⟩
  | 46 => ⟨S32768x16, .f32⟩
  | 47 => ⟨S_, .f32⟩
  | 48 => ⟨S32768, .f32⟩
  | 49 => ⟨S_, .f32⟩
  | 50 => ⟨S32768, .f32⟩
  | 51 => ⟨S32768, .f32⟩
  | 52 => ⟨S32768x1, .f32⟩
  | 53 => ⟨S32768x16, .f32⟩
  | 54 => ⟨S32768x16, .f32⟩
  | 55 => ⟨S32768x16, .f32⟩
  | 56 => ⟨S_, .f32⟩
  | 57 => ⟨S32768, .f32⟩
  | 58 => ⟨S32768x1, .f32⟩
  | 59 => ⟨S32768x16, .f32⟩
  | 60 => ⟨S32768x16, .f32⟩
  | 61 => ⟨S32768x16x1, .f32⟩
  | 62 => ⟨S32768x16x32, .f32⟩
  | 63 => ⟨S32768x16x32, .f32⟩
  | 64 => ⟨S_, .f32⟩
  | 65 => ⟨S32768x32, .f32⟩
  | 66 => ⟨S32768x32, .f32⟩
  | 67 => ⟨S_, .f32⟩
  | 68 => ⟨S32768, .f32⟩
  | 69 => ⟨S32768x1, .f32⟩
  | 70 => ⟨S_, .f32⟩
  | 71 => ⟨S32768x1, .f32⟩
  | 72 => ⟨S32768x1, .f32⟩
  | 73 => ⟨S32768x1, .f32⟩
  | 74 => ⟨S32768x32, .f32⟩
  | 75 => ⟨S32768x32, .f32⟩
  | 76 => ⟨S32768x1, .f32⟩
  | 77 => ⟨S_, .f32⟩
  | 78 => ⟨S32768x1, .f32⟩
  | 79 => ⟨S32768x1, .f32⟩
  | 80 => ⟨S32768x32, .f32⟩
  | 81 => ⟨S32768x32, .f32⟩
  | 82 => ⟨S32768x1x32, .f32⟩
  | 83 => ⟨S32768x16x32, .f32⟩
  | 84 => ⟨S32768x16x32, .f32⟩
  | 85 => ⟨S_, .f32⟩
  | 86 => ⟨S32768x16, .f32⟩
  | 87 => ⟨S32768x16, .f32⟩
  | 88 => ⟨S_, .f32⟩
  | 89 => ⟨S32768, .f32⟩
  | 90 => ⟨S_, .f32⟩
  | 91 => ⟨S32768, .f32⟩
  | 92 => ⟨S32768, .f32⟩
  | 93 => ⟨S32768x1, .f32⟩
  | 94 => ⟨S32768x16, .f32⟩
  | 95 => ⟨S32768x16, .f32⟩
  | 96 => ⟨S32768x16, .f32⟩
  | 97 => ⟨S_, .f32⟩
  | 98 => ⟨S32768, .f32⟩
  | 99 => ⟨S32768x1, .f32⟩
  | 100 => ⟨S32768x16, .f32⟩
  | 101 => ⟨S32768x16, .f32⟩
  | 102 => ⟨S32768x16x1, .f32⟩
  | 103 => ⟨S32768x16x32, .f32⟩
  | 104 => ⟨S32768x16x32, .f32⟩
  | 105 => ⟨S_, .f32⟩
  | 106 => ⟨S32768x32, .f32⟩
  | 107 => ⟨S32768x32, .f32⟩
  | 108 => ⟨S_, .f32⟩
  | 109 => ⟨S32768, .f32⟩
  | 110 => ⟨S32768x1, .f32⟩
  | 111 => ⟨S_, .f32⟩
  | 112 => ⟨S32768x1, .f32⟩
  | 113 => ⟨S32768x1, .f32⟩
  | 114 => ⟨S32768x1, .f32⟩
  | 115 => ⟨S32768x32, .f32⟩
  | 116 => ⟨S32768x32, .f32⟩
  | 117 => ⟨S32768x1, .f32⟩
  | 118 => ⟨S_, .f32⟩
  | 119 => ⟨S32768x1, .f32⟩
  | 120 => ⟨S32768x1, .f32⟩
  | 121 => ⟨S32768x32, .f32⟩
  | 122 => ⟨S32768x32, .f32⟩
  | 123 => ⟨S32768x1x32, .f32⟩
  | 124 => ⟨S32768x16x32, .f32⟩
  | 125 => ⟨S32768x16x32, .f32⟩
  | 126 => ⟨S_, .f32⟩
  | 127 => ⟨S32768x16, .f32⟩
  | _ => ⟨S32768x512, .f32⟩

abbrev hbmTy0_1 (i : Nat) : BufTy := match i % 128 with
  | 0 => ⟨S32768x16, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_cst_9 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_10 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_11 : Ref sig .tc := ⟨.hbm, 64, rfl⟩
abbrev main_v50 : Ref sig .tc := ⟨.hbm, 65, rfl⟩
abbrev main_v51 : Ref sig .tc := ⟨.hbm, 66, rfl⟩
abbrev main_cst_12 : Ref sig .tc := ⟨.hbm, 67, rfl⟩
abbrev main_v52 : Ref sig .tc := ⟨.hbm, 68, rfl⟩
abbrev main_v53 : Ref sig .tc := ⟨.hbm, 69, rfl⟩
abbrev main_cst_13 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_14 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_cst_16 : Ref sig .tc := ⟨.hbm, 88, rfl⟩
abbrev main_v69 : Ref sig .tc := ⟨.hbm, 89, rfl⟩
abbrev main_cst_17 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_18 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_19 : Ref sig .tc := ⟨.hbm, 105, rfl⟩
abbrev main_v83 : Ref sig .tc := ⟨.hbm, 106, rfl⟩
abbrev main_v84 : Ref sig .tc := ⟨.hbm, 107, rfl⟩
abbrev main_cst_20 : Ref sig .tc := ⟨.hbm, 108, rfl⟩
abbrev main_v85 : Ref sig .tc := ⟨.hbm, 109, rfl⟩
abbrev main_v86 : Ref sig .tc := ⟨.hbm, 110, rfl⟩
abbrev main_cst_21 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_22 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_23 : Ref sig .tc := ⟨.hbm, 126, rfl⟩
abbrev main_v100 : Ref sig .tc := ⟨.hbm, 127, rfl⟩
abbrev main_v101 : Ref sig .tc := ⟨.hbm, 128, rfl⟩

abbrev nD : Nat := 1
abbrev τ : Topo := Topo.v7x

variable {F : FTy → Type} [FloatOps F]

class Facts₀ : Prop where
  shapeCasts_S32768x512_S32768x16x32 : S32768x512.ShapeCasts S32768x16x32
  bcast_S_S32768x16 : S_.BroadcastsInDim S32768x16 (![] : Fin 0 → Fin S32768x16.rank)
  reducesTo_S32768x16_S32768_d1 : S32768x16.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x16_0_1 : S32768x1.BroadcastsInDim S32768x16 (![0, 1] : Fin 2 → Fin S32768x16.rank)
  bcast_S32768x16_S32768x16x1_0_1 : S32768x16.BroadcastsInDim S32768x16x1 (![0, 1] : Fin 2 → Fin S32768x16x1.rank)
  bcast_S32768x16x1_S32768x16x32_0_1_2 : S32768x16x1.BroadcastsInDim S32768x16x32 (![0, 1, 2] : Fin 3 → Fin S32768x16x32.rank)
  reducesTo_S32768x16x32_S32768x32_d1 : S32768x16x32.ReducesTo [1] S32768x32
  reducesTo_S32768x32_S32768_d1 : S32768x32.ReducesTo [1] S32768
  bcast_S_S32768x1 : S_.BroadcastsInDim S32768x1 (![] : Fin 0 → Fin S32768x1.rank)
  bcast_S32768x1_S32768x32_0_1 : S32768x1.BroadcastsInDim S32768x32 (![0, 1] : Fin 2 → Fin S32768x32.rank)
  bcast_S32768x32_S32768x1x32_0_2 : S32768x32.BroadcastsInDim S32768x1x32 (![0, 2] : Fin 2 → Fin S32768x1x32.rank)
  bcast_S32768x1x32_S32768x16x32_0_1_2 : S32768x1x32.BroadcastsInDim S32768x16x32 (![0, 1, 2] : Fin 3 → Fin S32768x16x32.rank)
  reducesTo_S32768x16x32_S32768x16_d2 : S32768x16x32.ReducesTo [2] S32768x16
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.Masks.lean ====
/- The two constant 0/1 masks the host builds before the kernel's region: the capsule mask G[i, k] = 1 iff
   i / 32 = k (512 × 16) and the coordinate mask H[i, d] = 1 iff i % 32 = d (512 × 32). Each is read off the
   region-entry contents: the host operations' composed term, then that term at an index, where the row's integer
   chain (floor division, floor remainder by 32 with their sign fix-ups) is evaluated on all 512 positions. -/
import proofs.«423242_j85693187490407_3_alg».proof.Proof.Gen.KernelIdeal.Frame
import Idealize.ShloMosaic.Lib.ValueIdx
import Idealize.ShloMosaic.Lib.StableHlo.Run
import Idealize.ShloMosaic.Lib.StableHlo.Predicate
noncomputable section
namespace Cert.KernelIdeal.Masks
open Cert.KernelIdeal Cert.KernelIdeal.Gen Idealize.ShloMosaic Idealize.ShloMosaic.TcCoe Idealize.SL.Sem Idealize.ShloMosaic.ValueIdx
variable (m : (ℓ : Loc nD τ sig) → Buf (Elt Ideal) ℓ)

/-- The sign word of a 32-bit word: 0, 1 or -1. -/
def sgnW (x : BitVec 32) : BitVec 32 := if x = 0 then 0 else if x.msb then -1 else 1

/-- The host's floor division of a word by 32: the truncated quotient, less one when the signs differ and the
    remainder is not zero. -/
def fdW (x : BitVec 32) : BitVec 32 :=
  Scalar.select
    (IntOp.andi (IntOp.cmpi .ne (sgnW x) (sgnW 32#32)) (IntOp.cmpi .ne (IntOp.remsi .host x 32#32) 0#32))
    (IntOp.subi (IntOp.divsi .host x 32#32) 1#32) (IntOp.divsi .host x 32#32)

/-- The divisor the host's floor remainder divides by: 32, or 1 were it zero. -/
def dvW : BitVec 32 := Scalar.select (IntOp.cmpi .eq 32#32 0#32) 1#32 32#32

/-- The host's floor remainder of a word by 32: the truncated remainder, plus the divisor when it is not zero
    and its sign differs from the divisor's. -/
def rmW (x : BitVec 32) : BitVec 32 :=
  Scalar.select
    (IntOp.andi (IntOp.cmpi .ne (IntOp.cmpi .slt (IntOp.remsi .host x dvW) 0#32) (IntOp.cmpi .slt dvW 0#32))
      (IntOp.cmpi .ne (IntOp.remsi .host x dvW) 0#32))
    (IntOp.addi (IntOp.remsi .host x dvW) dvW) (IntOp.remsi .host x dvW)

/-- On the positions 0, …, 511 the floor division by 32 is the natural-number quotient (all 512 rows evaluated). -/
theorem fdW_eq : ∀ i : Fin 512, fdW (BitVec.ofNat 32 i.val) = BitVec.ofNat 32 (i.val / 32) := by decide +kernel
/-- On the positions 0, …, 511 the floor remainder by 32 is the natural-number remainder (all 512 rows evaluated). -/
theorem rmW_eq : ∀ i : Fin 512, rmW (BitVec.ofNat 32 i.val) = BitVec.ofNat 32 (i.val % 32) := by decide +kernel

/-! ## The two rows of words the host builds -/

/-- The row of floor quotients, position i ↦ i // 32, as the host operations compose it: the truncated quotient
    of the positions by the constant 32 with the sign fix-up. -/
def floorRow : IVec S512 32 :=
  select
    (andi
      (cmpi .ne (signi (iotaInDim S512 32 0)) (broadcastInDim S512 ![] bcast_S_S512 (signi (constantI S_ 32 32#32))))
      (cmpi .ne (Host.remsi (iotaInDim S512 32 0) (broadcastInDim S512 ![] bcast_S_S512 (constantI S_ 32 32#32)))
        (broadcastInDim S512 ![] bcast_S_S512 (constantI S_ 32 0#32))))
    (subi (Host.divsi (iotaInDim S512 32 0) (broadcastInDim S512 ![] bcast_S_S512 (constantI S_ 32 32#32)))
      (broadcastInDim S512 ![] bcast_S_S512 (constantI S_ 32 1#32)))
    (Host.divsi (iotaInDim S512 32 0) (broadcastInDim S512 ![] bcast_S_S512 (constantI S_ 32 32#32)))

/-- The divisor of the floor remainder as a scalar tensor: 32, or 1 were it zero. -/
def dvS : IVec S_ 32 :=
  select (cmpi .eq (constantI S_ 32 32#32) (constantI S_ 32 0#32)) (constantI S_ 32 1#32) (constantI S_ 32 32#32)

/-- The row of floor remainders, position i ↦ i % 32, as the host operations compose it: the truncated remainder
    of the positions by the divisor with the sign fix-up. -/
def remRow : IVec S512 32 :=
  select
    (andi
      (cmpi .ne
        (cmpi .slt (Host.remsi (iotaInDim S512 32 0) (broadcastInDim S512 ![] bcast_S_S512 dvS))
          (broadcastInDim S512 ![] bcast_S_S512 (constantI S_ 32 0#32)))
        (broadcastInDim S512 ![] bcast_S_S512 (cmpi .slt dvS (constantI S_ 32 0#32))))
      (cmpi .ne (Host.remsi (iotaInDim S512 32 0) (broadcastInDim S512 ![] bcast_S_S512 dvS))
        (broadcastInDim S512 ![] bcast_S_S512 (constantI S_ 32 0#32))))
    (addi (Host.remsi (iotaInDim S512 32 0) (broadcastInDim S512 ![] bcast_S_S512 dvS))
      (broadcastInDim S512 ![] bcast_S_S512 dvS))
    (Host.remsi (iotaInDim S512 32 0) (broadcastInDim S512 ![] bcast_S_S512 dvS))

/-- Every operation of the row is pointwise (or a scalar's broadcast), so position i holds the word chain at i. -/
theorem floorRow_apply (i : Fin 512) : floorRow (ix1 i) = fdW (BitVec.ofNat 32 i.val) := rfl
theorem remRow_apply (i : Fin 512) : remRow (ix1 i) = rmW (BitVec.ofNat 32 i.val) := rfl

/-! ## The two masks as the host operations compose them -/

/-- The capsule mask: the row of quotients laid down the rows, compared with 0, …, 15 laid along the columns. -/
def capTerm : S512x16.Idx → EReal :=
  uitofp (F := Ideal) .f32
    (cmpi .eq
      (broadcastInDim S512x16 ![0, 1] bcast_S512x1_S512x16_0_1 (broadcastInDim S512x1 ![0] bcast_S512_S512x1_0 floorRow))
      (broadcastInDim S512x16 ![0, 1] bcast_S1x16_S512x16_0_1 (broadcastInDim S1x16 ![1] bcast_S16_S1x16_1 (iotaInDim S16 32 0))))

/-- The coordinate mask: the row of remainders laid down the rows, compared with 0, …, 31 laid along the columns. -/
def dimTerm : S512x32.Idx → EReal :=
  uitofp (F := Ideal) .f32
    (cmpi .eq
      (broadcastInDim S512x32 ![0, 1] bcast_S512x1_S512x32_0_1 (broadcastInDim S512x1 ![0] bcast_S512_S512x1_0 remRow))
      (broadcastInDim S512x32 ![0, 1] bcast_S1x32_S512x32_0_1 (broadcastInDim S1x32 ![1] bcast_S32_S1x32_1 (iotaInDim S32 32 0))))

/-- A one-bit comparison of two small words, read as a number: 1 when the numbers agree, else 0. -/
theorem cmp_read (a b : ℕ) (ha : a < 2 ^ 32) (hb : b < 2 ^ 32) :
    (((IntOp.cmpi .eq (BitVec.ofNat 32 a) (BitVec.ofNat 32 b)).toNat : ℝ) : EReal) = if a = b then (1 : EReal) else 0 := by
  by_cases h : a = b
  · subst h
    rw [if_pos rfl, StableHlo.Predicate.cmpi_eq_iff.mpr rfl]
    norm_num
  · rw [if_neg h]
    have hne : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    have : IntOp.cmpi .eq (BitVec.ofNat 32 a) (BitVec.ofNat 32 b) = 0#1 := by
      simp only [IntOp.cmpi]
      rw [beq_eq_false_iff_ne.mpr hne]; rfl
    rw [this]
    norm_num

theorem capTerm_apply (i : Fin 512) (k : Fin 16) :
    capTerm (ix2 i k) = if i.val / 32 = k.val then (1 : EReal) else 0 := by
  have h : capTerm (ix2 i k)
      = (((IntOp.cmpi .eq (floorRow (ix1 i)) (BitVec.ofNat 32 k.val)).toNat : ℝ) : EReal) := rfl
  rw [h, floorRow_apply, fdW_eq]
  exact cmp_read _ _ (by have := i.isLt; omega) (by have := k.isLt; omega)

theorem dimTerm_apply (i : Fin 512) (d : Fin 32) :
    dimTerm (ix2 i d) = if i.val % 32 = d.val then (1 : EReal) else 0 := by
  have h : dimTerm (ix2 i d)
      = (((IntOp.cmpi .eq (remRow (ix1 i)) (BitVec.ofNat 32 d.val)).toNat : ℝ) : EReal) := rfl
  rw [h, remRow_apply, rmW_eq]
  exact cmp_read _ _ (by have := i.isLt; omega) (by have := d.isLt; omega)

/-! ## The region-entry contents are those terms -/

set_option maxHeartbeats 1000000 in
/-- The capsule mask's buffer at the region's entry is the composed term: the host operations' results, one pass. -/
theorem V_main_v9 (c : Dev nD) : (V m c main_v9 : S512x16.Idx → EReal) = capTerm := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  simp only [StableHlo.TRef.ofBuf, StableHlo.TRef.toBuf, cast_eq]
  rfl

set_option maxHeartbeats 1000000 in
/-- The coordinate mask's buffer at the region's entry is the composed term. -/
theorem V_main_v16 (c : Dev nD) : (V m c main_v16 : S512x32.Idx → EReal) = dimTerm := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results_simp
  simp only [StableHlo.TRef.ofBuf, StableHlo.TRef.toBuf, cast_eq]
  rfl

/-- Position i of the row of 512 belongs to capsule i / 32: the capsule mask. -/
theorem capMask_apply (c : Dev nD) (i : Fin 512) (k : Fin 16) :
    (V m c main_v9 : S512x16.Idx → EReal) (ix2 i k) = if i.val / 32 = k.val then (1 : EReal) else 0 := by
  rw [V_main_v9]; exact capTerm_apply i k
/-- Position i holds coordinate i % 32: the coordinate mask. -/
theorem dimMask_apply (c : Dev nD) (i : Fin 512) (d : Fin 32) :
    (V m c main_v16 : S512x32.Idx → EReal) (ix2 i d) = if i.val % 32 = d.val then (1 : EReal) else 0 := by
  rw [V_main_v16]; exact dimTerm_apply i d

end Cert.KernelIdeal.Masks
end
-- ==== Proof.Routing.lean ====
/-
  Dynamic routing between capsules, one batch row at a time, on the extended reals.

  A row of the batch carries 16 capsule predictions of 32 coordinates each, `u k d`, laid out flat in a row of
  512 at position `32·k + d`. Routing keeps 16 logits `b`. One round: the logits' softmax `weight b` (the exponentials
  shifted by the row's maximum, divided by their sum); the weighted mix `blend u b d = ∑ₖ weight b k · u k d`; its
  squash `(‖s‖² / (1 + ‖s‖²)) · s / (‖s‖ + ε)`; and the new logits `b k + ∑_d u k d · v d`, the agreement of every
  capsule's prediction with the squashed vote. The result is the vote of the third round, from zero logits.

  The second half is the arithmetic that lets a flat row stand for the 16 × 32 table: a sum over the 512 positions
  against a 0/1 mask that marks one capsule (position `i` belongs to capsule `i / 32`) or one coordinate (`i % 32`)
  is the sum over that capsule's coordinates, or over that coordinate of every capsule; and the sum of a 16- or
  32-vector against the mask of one position is the single entry the position selects. Only `x · 0 = 0`, `x · 1 = x`
  and the commutativity of finite sums are used, which hold on all of the extended reals.
-/
import Idealize.ShloMosaic.PureOps.Ideal
import Idealize.ShloMosaic.PureOps.Ideal.Laws
import Idealize.ShloMosaic.Lib.ValueIdx

noncomputable section

namespace Cert.Routing

open Idealize.ShloMosaic Idealize.ShloMosaic.ValueIdx

/-! ## One round of routing on a row -/

/-- The largest of a row's 16 logits, folded from `-∞`. -/
def rowMax (b : Fin 16 → EReal) : EReal :=
  (Finset.univ : Finset (Fin 16)).fold max (Ideal.ofBits .f32 0xFF800000#32) b

/-- The softmax weight of capsule `k`. -/
def weight (b : Fin 16 → EReal) (k : Fin 16) : EReal :=
  Ideal.div (Ideal.exp (b k - rowMax b)) (∑ k' : Fin 16, Ideal.exp (b k' - rowMax b))

/-- The weighted mix of the capsules' predictions, coordinate `d`. -/
def blend (u : Fin 16 → Fin 32 → EReal) (b : Fin 16 → EReal) (d : Fin 32) : EReal :=
  ∑ k : Fin 16, weight b k * u k d

/-- The squared length of a 32-vector. -/
def energy (s : Fin 32 → EReal) : EReal := ∑ d : Fin 32, s d * s d

/-- The squash `(n / (1 + n)) · s / (√n + ε)` with `n = ‖s‖²`. -/
def squash (s : Fin 32 → EReal) (d : Fin 32) : EReal :=
  Ideal.div (Ideal.div (energy s) (Ideal.ofBits .f32 0x3F800000#32 + energy s) * s d)
    (Ideal.sqrt (energy s) + Ideal.ofBits .f32 0x322BCC77#32)

/-- The round's vote: the squashed mix. -/
def vote (u : Fin 16 → Fin 32 → EReal) (b : Fin 16 → EReal) : Fin 32 → EReal := squash (blend u b)

/-- The next logits: each capsule's agreement with the vote is added. -/
def agree (u : Fin 16 → Fin 32 → EReal) (b : Fin 16 → EReal) (k : Fin 16) : EReal :=
  b k + ∑ d : Fin 32, u k d * vote u b d

/-- The logits before the first round. -/
def zeroLogits : Fin 16 → EReal := fun _ => Ideal.ofBits .f32 0x00000000#32

/-- Three rounds: the vote of the third. -/
def routed (u : Fin 16 → Fin 32 → EReal) : Fin 32 → EReal := vote u (agree u (agree u zeroLogits))

/-! ## The flat row -/

/-- Capsule `k`'s coordinate `d` sits at position `32·k + d` of the row of 512. -/
def slot (k : Fin 16) (d : Fin 32) : Fin 512 := ⟨32 * k.val + d.val, by omega⟩

/-- The capsule a position belongs to, and its coordinate there. -/
def capOf (i : Fin 512) : Fin 16 := ⟨i.val / 32, by omega⟩
def dimOf (i : Fin 512) : Fin 32 := ⟨i.val % 32, by omega⟩

@[simp] theorem slot_val (k : Fin 16) (d : Fin 32) : (slot k d).val = 32 * k.val + d.val := rfl
@[simp] theorem capOf_val (i : Fin 512) : (capOf i).val = i.val / 32 := rfl
@[simp] theorem dimOf_val (i : Fin 512) : (dimOf i).val = i.val % 32 := rfl

theorem capOf_slot (k : Fin 16) (d : Fin 32) : capOf (slot k d) = k :=
  Fin.ext (by show (32 * k.val + d.val) / 32 = k.val; omega)
theorem dimOf_slot (k : Fin 16) (d : Fin 32) : dimOf (slot k d) = d :=
  Fin.ext (by show (32 * k.val + d.val) % 32 = d.val; omega)
theorem slot_capOf_dimOf (i : Fin 512) : slot (capOf i) (dimOf i) = i :=
  Fin.ext (by show 32 * (i.val / 32) + i.val % 32 = i.val; omega)

/-- Positions are pairs (capsule, coordinate). -/
def slotEquiv : Fin 16 × Fin 32 ≃ Fin 512 where
  toFun p := slot p.1 p.2
  invFun i := (capOf i, dimOf i)
  left_inv p := Prod.ext (capOf_slot p.1 p.2) (dimOf_slot p.1 p.2)
  right_inv i := slot_capOf_dimOf i

/-- A sum over the 512 positions is the double sum over capsules and coordinates. -/
theorem sum_slots (g : Fin 512 → EReal) : ∑ i : Fin 512, g i = ∑ k : Fin 16, ∑ d : Fin 32, g (slot k d) := by
  rw [← Equiv.sum_comp slotEquiv g, Fintype.sum_prod_type]
  rfl

/-- Row `r` of the product `x · w`, read as the 16 × 32 table of predictions. -/
def rowOf {R : Nat} (x : (⟨2, ![R, 512]⟩ : Shape).Idx → EReal) (w : (⟨2, ![512, 512]⟩ : Shape).Idx → EReal)
    (r : Fin R) (k : Fin 16) (d : Fin 32) : EReal :=
  ∑ j : Fin 512, x (ix2 r j) * w (ix2 j (slot k d))

/-! ## Sums against the 0/1 masks -/

/-- A 16-vector against the mask of position `i`'s capsule: the entry of that capsule. -/
theorem sum_capMask_pos (c : Fin 16 → EReal) (i : Fin 512) :
    ∑ k : Fin 16, c k * (if i.val / 32 = k.val then (1 : EReal) else 0) = c (capOf i) := by
  rw [Finset.sum_eq_single (capOf i)]
  · rw [if_pos (show i.val / 32 = (capOf i).val from rfl), mul_one]
  · intro k _ hk
    rw [if_neg (fun h => hk (Fin.ext h.symm)), mul_zero]
  · intro h; exact absurd (Finset.mem_univ _) h

/-- A 32-vector against the mask of position `i`'s coordinate: the entry of that coordinate. -/
theorem sum_dimMask_pos (v : Fin 32 → EReal) (i : Fin 512) :
    ∑ d : Fin 32, v d * (if i.val % 32 = d.val then (1 : EReal) else 0) = v (dimOf i) := by
  rw [Finset.sum_eq_single (dimOf i)]
  · rw [if_pos (show i.val % 32 = (dimOf i).val from rfl), mul_one]
  · intro d _ hd
    rw [if_neg (fun h => hd (Fin.ext h.symm)), mul_zero]
  · intro h; exact absurd (Finset.mem_univ _) h

/-- The row against the mask of coordinate `d`: the sum over the capsules of their coordinate `d`. -/
theorem sum_pos_dimMask (f : Fin 512 → EReal) (d : Fin 32) :
    ∑ i : Fin 512, f i * (if i.val % 32 = d.val then (1 : EReal) else 0) = ∑ k : Fin 16, f (slot k d) := by
  rw [sum_slots]
  refine Finset.sum_congr rfl fun k _ => ?_
  rw [Finset.sum_eq_single d]
  · rw [if_pos (show (slot k d).val % 32 = d.val by rw [slot_val]; omega), mul_one]
  · intro d' _ hd'
    rw [if_neg (fun (h : (slot k d').val % 32 = d.val) => hd' (Fin.ext (by rw [slot_val] at h; omega))), mul_zero]
  · intro h; exact absurd (Finset.mem_univ _) h

/-- The row against the mask of capsule `k`: the sum over that capsule's coordinates. -/
theorem sum_pos_capMask (f : Fin 512 → EReal) (k : Fin 16) :
    ∑ i : Fin 512, f i * (if i.val / 32 = k.val then (1 : EReal) else 0) = ∑ d : Fin 32, f (slot k d) := by
  rw [sum_slots, Finset.sum_eq_single k]
  · refine Finset.sum_congr rfl fun d _ => ?_
    rw [if_pos (show (slot k d).val / 32 = k.val by rw [slot_val]; omega), mul_one]
  · intro k' _ hk'
    refine Finset.sum_eq_zero fun d _ => ?_
    rw [if_neg (fun (h : (slot k' d).val / 32 = k.val) => hk' (Fin.ext (by rw [slot_val] at h; omega))), mul_zero]
  · intro h; exact absurd (Finset.mem_univ _) h

end Cert.Routing

end
-- ==== Proof.Rounds.lean ====
/-
  What one grid point's body leaves in its output block: three rounds of routing.

  The body loads the row block of x, the weights W and the two masks, runs a counted loop of three trips that carries
  the logits and the vote, and stores the last vote over the whole output block. The loop's region issues nothing,
  so it is the fold of its yield over the trips; the yield does not read the trip number, so the fold is the yield
  iterated three times: from zero logits, twice the logits' update, then the vote of the third round.
-/
import proofs.«423242_j85693187490407_3_alg».proof.Proof.Gen.KernelIdeal.Frame
import Idealize.ShloMosaic.Lib.Pipeline.Value
import Idealize.ShloMosaic.Lib.Tactic
import Mathlib.Logic.Function.Iterate

set_option maxRecDepth 16384

noncomputable section

namespace Cert.KernelIdeal.Rounds

open Cert.KernelIdeal Cert.KernelIdeal.Gen Idealize.ShloMosaic Idealize.ShloMosaic.TcCoe Idealize.SL.Sem
  Idealize.ShloMosaic.Tactic

variable {F : FTy → Type} [FloatOps F]

/-- The loop runs three trips. -/
theorem trips_eq : k0_t1_loop.trips = 3 := by decide

/-- The fold of a yield that does not read the trip number is the yield iterated once per trip. -/
theorem fold_const {σ : Type} {n : Nat} (h : σ → σ) (init : σ) :
    Scf.fold (n := n) (fun _ a => h a) init = h^[n] init := by
  rw [Scf.fold_eq, List.foldl_const, List.length_finRange]

/-- The block a grid point's body leaves in the output's staging buffer, as a function of the four blocks it loaded:
    the third round's vote, at the logits two updates after zero. -/
theorem out_eq (c : Dev nD) (i : grid0.Coords) (arg1 : Memref sig .tc .vmem S2048x512 .f32) (harg1 : arg1.IsWhole) (arg2 : Memref sig .tc .vmem S512x512 .f32) (harg2 : arg2.IsWhole) (arg3 : Memref sig .tc .vmem S512x16 .f32) (harg3 : arg3.IsWhole) (arg4 : Memref sig .tc .vmem S512x32 .f32) (harg4 : arg4.IsWhole) (arg5 : Memref sig .tc .vmem S2048x32 .f32) (harg5 : arg5.IsWhole)
    (x0 : Vec F S2048x512 .f32) (x1 : Vec F S512x512 .f32) (x2 : Vec F S512x16 .f32) (x3 : Vec F S512x32 .f32) :
    out0_A_4 c i arg1 harg1 arg2 harg2 arg3 harg3 arg4 harg4 arg5 harg5 x0 x1 x2 x3
      = k0_pay6 x0 x1 x2 x3 (k0_pay7 x0 x1 x2 x3 (k0_pay7 x0 x1 x2 x3 k0_pay4)) := by
  have hz : (![0, 0] : Fin S2048x32.rank → Nat) = fun _ => 0 := by
    funext a; match a with | ⟨0, _⟩ => rfl | ⟨1, _⟩ => rfl
  have hz0 : (![0, 0] : Fin S2048x512.rank → Nat) = fun _ => 0 := by
    funext a; match a with | ⟨0, _⟩ => rfl | ⟨1, _⟩ => rfl
  have hz1 : (![0, 0] : Fin S512x512.rank → Nat) = fun _ => 0 := by
    funext a; match a with | ⟨0, _⟩ => rfl | ⟨1, _⟩ => rfl
  have hz2 : (![0, 0] : Fin S512x16.rank → Nat) = fun _ => 0 := by
    funext a; match a with | ⟨0, _⟩ => rfl | ⟨1, _⟩ => rfl
  have hz3 : (![0, 0] : Fin S512x32.rank → Nat) = fun _ => 0 := by
    funext a; match a with | ⟨0, _⟩ => rfl | ⟨1, _⟩ => rfl
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S2048x512) hz0, View.ld_unit_zero (S := S512x512) hz1,
    View.ld_unit_zero (S := S512x16) hz2, View.ld_unit_zero (S := S512x32) hz3]
  rw [fold_const (fun a : FVec F S2048x16 .f32 × FVec F S2048x32 .f32 =>
    (k0_pay7 x0 x1 x2 x3 a.1, k0_pay6 x0 x1 x2 x3 a.1)) (k0_pay4, k0_pay5), trips_eq]
  rfl

end Cert.KernelIdeal.Rounds

end
-- ==== Proof.Products.lean ====
/-
  The body's five matrix products, each into a zero accumulator, read at an element as a plain sum over the one
  contracted coordinate. Two contract the left operand's second axis with the right operand's FIRST axis
  (rows × columns); the two that spread a short vector over the row of 512 contract it with the right operand's SECOND
  axis (the mask is used transposed): entry (r, i) is then `∑ₖ lhs (r, k) · rhs (i, k)`.
  For each dimension record the operand indices at an output index and a contraction index are read axis by axis.
-/
import proofs.«423242_j85693187490407_3_alg».proof.Proof.Gen.KernelIdeal
import Idealize.ShloMosaic.PureOps.Ideal.Laws
import Idealize.ShloMosaic.Lib.ValueIdx

noncomputable section

namespace Cert.KernelIdeal.Products

open Cert.KernelIdeal Cert.KernelIdeal.Gen Idealize.ShloMosaic Idealize.ShloMosaic.ValueIdx

/-! ## the projection x · W: entry (r, i) sums over the 512 input coordinates -/

theorem lhs_proj_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_proj_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_proj_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl
theorem rhs_proj_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q

theorem proj_apply {φ₁ φ₂ : FTy} (lhs : FVec Ideal S2048x512 φ₁) (rhs : FVec Ideal S512x512 φ₂) (r : Fin 2048) (c : Fin 512) :
    matmul dot_S2048x512_S512x512_S2048x512_1_0_0_1_n_n none lhs rhs (constant S2048x512 .f32 0x00000000#32) (ix2 r c)
      = ∑ k : Fin 512, lhs (ix2 r k) * rhs (ix2 k c) := by
  show FloatOps.matmul _ none lhs rhs _ (ix2 r c) = _
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 r c) ((contrEquiv1 dot_S2048x512_S512x512_S2048x512_1_0_0_1_n_n 512 rfl rfl).symm k) = ix2 r k :=
    funext fun a => Fin.ext (by
      match a with
      | ⟨0, _⟩ => exact lhs_proj_0 _ _
      | ⟨1, _⟩ => exact (lhs_proj_1 _ _).trans hk)
  have er : dot_S2048x512_S512x512_S2048x512_1_0_0_1_n_n.rhsIdx (ix2 r c) ((contrEquiv1 dot_S2048x512_S512x512_S2048x512_1_0_0_1_n_n 512 rfl rfl).symm k) = ix2 k c :=
    funext fun a => Fin.ext (by
      match a with
      | ⟨1, _⟩ => exact rhs_proj_1 _ _
      | ⟨0, _⟩ => exact (rhs_proj_0 _ _).trans hk)
  rw [el, er]

/-! ## a 16-vector per row against the capsule mask's rows: entry (r, i) sums over the 16 capsules -/

theorem lhs_spreadCap_0 (i : S2048x512.Idx) (q : dot_S2048x16_S512x16_S2048x512_1_1_0_0_n_n.contr.Idx) :
    (dot_S2048x16_S512x16_S2048x512_1_1_0_0_n_n.lhsIdx i q 0).val = (i 0).val := by
  unfold DotDims.lhsIdx
  rw [dif_neg (show ¬(0 : Fin S2048x16.rank) ∈ dot_S2048x16_S512x16_S2048x512_1_1_0_0_n_n.lhsBatch by decide), dif_pos (show (0 : Fin S2048x16.rank) ∈ dot_S2048x16_S512x16_S2048x512_1_1_0_0_n_n.lhsNonContracting by decide)]
  rfl
theorem lhs_spreadCap_1 (i : S2048x512.Idx) (q : dot_S2048x16_S512x16_S2048x512_1_1_0_0_n_n.contr.Idx) :
    (dot_S2048x16_S512x16_S2048x512_1_1_0_0_n_n.lhsIdx i q 1).val = (q ⟨0, by decide⟩).val :=
  dot_S2048x16_S512x16_S2048x512_1_1_0_0_n_n.lhsIdx_val_of_single rfl i q
theorem rhs_spreadCap_0 (i : S2048x512.Idx) (q : dot_S2048x16_S512x16_S2048x512_1_1_0_0_n_n.contr.Idx) :
    (dot_S2048x16_S512x16_S2048x512_1_1_0_0_n_n.rhsIdx i q 0).val = (i 1).val := by
  unfold DotDims.rhsIdx
  rw [dif_neg (show ¬(0 : Fin S512x16.rank) ∈ dot_S2048x16_S512x16_S2048x512_1_1_0_0_n_n.rhsBatch by decide), dif_pos (show (0 : Fin S512x16.rank) ∈ dot_S2048x16_S512x16_S2048x512_1_1_0_0_n_n.rhsNonContracting by decide)]
  rfl
theorem rhs_spreadCap_1 (i : S2048x512.Idx) (q : dot_S2048x16_S512x16_S2048x512_1_1_0_0_n_n.contr.Idx) :
    (dot_S2048x16_S512x16_S2048x512_1_1_0_0_n_n.rhsIdx i q 1).val = (q ⟨0, by decide⟩).val :=
  dot_S2048x16_S512x16_S2048x512_1_1_0_0_n_n.rhsIdx_val_of_single rfl i q

theorem spreadCap_apply {φ₁ φ₂ : FTy} (lhs : FVec Ideal S2048x16 φ₁) (rhs : FVec Ideal S512x16 φ₂) (r : Fin 2048) (c : Fin 512) :
    matmul dot_S2048x16_S512x16_S2048x512_1_1_0_0_n_n none lhs rhs (constant S2048x512 .f32 0x00000000#32) (ix2 r c)
      = ∑ k : Fin 16, lhs (ix2 r k) * rhs (ix2 c k) := by
  show FloatOps.matmul _ none lhs rhs _ (ix2 r c) = _
  rw [Ideal.matmul_constant_zero_apply, ← Equiv.sum_comp (contrEquiv1 dot_S2048x16_S512x16_S2048x512_1_1_0_0_n_n 16 rfl rfl).symm]
  refine Finset.sum_congr rfl fun k _ => ?_
  have hk := contrEquiv1_symm_val dot_S2048x16_S512x16_S2048x512_1_1_0_0_n_n 16 rfl rfl k
  have el : dot_S2048x16_S512x16_S2048x512_1_1_0_0_n_n.lhsIdx (ix2 r c) ((contrEquiv1 dot_S2048x16_S512x16_S2048x512_1_1_0_0_n_n 16 rfl rfl).symm k) = ix2 r k :=
    funext fun a => Fin.ext (by
      match a with
      | ⟨0, _⟩ => exact lhs_spreadCap_0 _ _
      | ⟨1, _⟩ => exact (lhs_spreadCap_1 _ _).trans hk)
  have er : dot_S2048x16_S512x16_S2048x512_1_1_0_0_n_n.rhsIdx (ix2 r c) ((contrEquiv1 dot_S2048x16_S512x16_S2048x512_1_1_0_0_n_n 16 rfl rfl).symm k) = ix2 c k :=
    funext fun a => Fin.ext (by
      match a with
      | ⟨0, _⟩ => exact rhs_spreadCap_0 _ _
      | ⟨1, _⟩ => exact (rhs_spreadCap_1 _ _).trans hk)
  rw [el, er]

/-! ## a row of 512 against the coordinate mask's columns: entry (r, d) sums over the 512 positions -/

theorem lhs_gatherDim_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhs_gatherDim_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
theorem rhs_gatherDim_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl
theorem rhs_gatherDim_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q

theorem gatherDim_apply {φ₁ φ₂ : FTy} (lhs : FVec Ideal S2048x512 φ₁) (rhs : FVec Ideal S512x32 φ₂) (r : Fin 2048) (c : Fin 32) :
    matmul dot_S2048x512_S512x32_S2048x32_1_0_0_1_n_n none lhs rhs (constant S2048x32 .f32 0x00000000#32) (ix2 r c)
      = ∑ k : Fin 512, lhs (ix2 r k) * rhs (ix2 k c) := by
  show FloatOps.matmul _ none lhs rhs _ (ix2 r c) = _
  rw [Ideal.matmul_constant_zero_apply, ← Equiv.sum_comp (contrEquiv1 dot_S2048x512_S512x32_S2048x32_1_0_0_1_n_n 512 rfl rfl).symm]
  refine Finset.sum_congr rfl fun k _ => ?_
  have hk := contrEquiv1_symm_val dot_S2048x512_S512x32_S2048x32_1_0_0_1_n_n 512 rfl rfl k
  have el : dot_S2048x512_S512x32_S2048x32_1_0_0_1_n_n.lhsIdx (ix2 r c) ((contrEquiv1 dot_S2048x512_S512x32_S2048x32_1_0_0_1_n_n 512 rfl rfl).symm k) = ix2 r k :=
    funext fun a => Fin.ext (by
      match a with
      | ⟨0, _⟩ => exact lhs_gatherDim_0 _ _
      | ⟨1, _⟩ => exact (lhs_gatherDim_1 _ _).trans hk)
  have er : dot_S2048x512_S512x32_S2048x32_1_0_0_1_n_n.rhsIdx (ix2 r c) ((contrEquiv1 dot_S2048x512_S512x32_S2048x32_1_0_0_1_n_n 512 rfl rfl).symm k) = ix2 k c :=
    funext fun a => Fin.ext (by
      match a with
      | ⟨1, _⟩ => exact rhs_gatherDim_1 _ _
      | ⟨0, _⟩ => exact (rhs_gatherDim_0 _ _).trans hk)
  rw [el, er]

/-! ## a 32-vector per row against the coordinate mask's rows: entry (r, i) sums over the 32 coordinates -/

theorem lhs_spreadDim_0 (i : S2048x512.Idx) (q : dot_S2048x32_S512x32_S2048x512_1_1_0_0_n_n.contr.Idx) :
    (dot_S2048x32_S512x32_S2048x512_1_1_0_0_n_n.lhsIdx i q 0).val = (i 0).val := by
  unfold DotDims.lhsIdx
  rw [dif_neg (show ¬(0 : Fin S2048x32.rank) ∈ dot_S2048x32_S512x32_S2048x512_1_1_0_0_n_n.lhsBatch by decide), dif_pos (show (0 : Fin S2048x32.rank) ∈ dot_S2048x32_S512x32_S2048x512_1_1_0_0_n_n.lhsNonContracting by decide)]
  rfl
theorem lhs_spreadDim_1 (i : S2048x512.Idx) (q : dot_S2048x32_S512x32_S2048x512_1_1_0_0_n_n.contr.Idx) :
    (dot_S2048x32_S512x32_S2048x512_1_1_0_0_n_n.lhsIdx i q 1).val = (q ⟨0, by decide⟩).val :=
  dot_S2048x32_S512x32_S2048x512_1_1_0_0_n_n.lhsIdx_val_of_single rfl i q
theorem rhs_spreadDim_0 (i : S2048x512.Idx) (q : dot_S2048x32_S512x32_S2048x512_1_1_0_0_n_n.contr.Idx) :
    (dot_S2048x32_S512x32_S2048x512_1_1_0_0_n_n.rhsIdx i q 0).val = (i 1).val := by
  unfold DotDims.rhsIdx
  rw [dif_neg (show ¬(0 : Fin S512x32.rank) ∈ dot_S2048x32_S512x32_S2048x512_1_1_0_0_n_n.rhsBatch by decide), dif_pos (show (0 : Fin S512x32.rank) ∈ dot_S2048x32_S512x32_S2048x512_1_1_0_0_n_n.rhsNonContracting by decide)]
  rfl
theorem rhs_spreadDim_1 (i : S2048x512.Idx) (q : dot_S2048x32_S512x32_S2048x512_1_1_0_0_n_n.contr.Idx) :
    (dot_S2048x32_S512x32_S2048x512_1_1_0_0_n_n.rhsIdx i q 1).val = (q ⟨0, by decide⟩).val :=
  dot_S2048x32_S512x32_S2048x512_1_1_0_0_n_n.rhsIdx_val_of_single rfl i q

theorem spreadDim_apply {φ₁ φ₂ : FTy} (lhs : FVec Ideal S2048x32 φ₁) (rhs : FVec Ideal S512x32 φ₂) (r : Fin 2048) (c : Fin 512) :
    matmul dot_S2048x32_S512x32_S2048x512_1_1_0_0_n_n none lhs rhs (constant S2048x512 .f32 0x00000000#32) (ix2 r c)
      = ∑ k : Fin 32, lhs (ix2 r k) * rhs (ix2 c k) := by
  show FloatOps.matmul _ none lhs rhs _ (ix2 r c) = _
  rw [Ideal.matmul_constant_zero_apply, ← Equiv.sum_comp (contrEquiv1 dot_S2048x32_S512x32_S2048x512_1_1_0_0_n_n 32 rfl rfl).symm]
  refine Finset.sum_congr rfl fun k _ => ?_
  have hk := contrEquiv1_symm_val dot_S2048x32_S512x32_S2048x512_1_1_0_0_n_n 32 rfl rfl k
  have el : dot_S2048x32_S512x32_S2048x512_1_1_0_0_n_n.lhsIdx (ix2 r c) ((contrEquiv1 dot_S2048x32_S512x32_S2048x512_1_1_0_0_n_n 32 rfl rfl).symm k) = ix2 r k :=
    funext fun a => Fin.ext (by
      match a with
      | ⟨0, _⟩ => exact lhs_spreadDim_0 _ _
      | ⟨1, _⟩ => exact (lhs_spreadDim_1 _ _).trans hk)
  have er : dot_S2048x32_S512x32_S2048x512_1_1_0_0_n_n.rhsIdx (ix2 r c) ((contrEquiv1 dot_S2048x32_S512x32_S2048x512_1_1_0_0_n_n 32 rfl rfl).symm k) = ix2 c k :=
    funext fun a => Fin.ext (by
      match a with
      | ⟨0, _⟩ => exact rhs_spreadDim_0 _ _
      | ⟨1, _⟩ => exact (rhs_spreadDim_1 _ _).trans hk)
  rw [el, er]

/-! ## a row of 512 against the capsule mask's columns: entry (r, k) sums over the 512 positions -/

theorem lhs_gatherCap_0 (i : S2048x16.Idx) (q : dot_S2048x512_S512x16_S2048x16_1_0_0_1_n_n.contr.Idx) :
    (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl
theorem lhs_gatherCap_1 (i : S2048x16.Idx) (q : dot_S2048x512_S512x16_S2048x16_1_0_0_1_n_n.contr.Idx) :
    (dot_S2048x512_S512x16_S2048x16_1_0_0_1_n_n.lhsIdx i q 1).val = (q ⟨0, by decide⟩).val :=
  dot_S2048x512_S512x16_S2048x16_1_0_0_1_n_n.lhsIdx_val_of_single rfl i q
theorem rhs_gatherCap_1 (i : S2048x16.Idx) (q : dot_S2048x512_S512x16_S2048x16_1_0_0_1_n_n.contr.Idx) :
    (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl
theorem rhs_gatherCap_0 (i : S2048x16.Idx) (q : dot_S2048x512_S512x16_S2048x16_1_0_0_1_n_n.contr.Idx) :
    (dot_S2048x512_S512x16_S2048x16_1_0_0_1_n_n.rhsIdx i q 0).val = (q ⟨0, by decide⟩).val :=
  dot_S2048x512_S512x16_S2048x16_1_0_0_1_n_n.rhsIdx_val_of_single rfl i q

theorem gatherCap_apply {φ₁ φ₂ : FTy} (lhs : FVec Ideal S2048x512 φ₁) (rhs : FVec Ideal S512x16 φ₂) (r : Fin 2048) (c : Fin 16) :
    matmul dot_S2048x512_S512x16_S2048x16_1_0_0_1_n_n none lhs rhs (constant S2048x16 .f32 0x00000000#32) (ix2 r c)
      = ∑ k : Fin 512, lhs (ix2 r k) * rhs (ix2 k c) := by
  show FloatOps.matmul _ none lhs rhs _ (ix2 r c) = _
  rw [Ideal.matmul_constant_zero_apply, ← Equiv.sum_comp (contrEquiv1 dot_S2048x512_S512x16_S2048x16_1_0_0_1_n_n 512 rfl rfl).symm]
  refine Finset.sum_congr rfl fun k _ => ?_
  have hk := contrEquiv1_symm_val dot_S2048x512_S512x16_S2048x16_1_0_0_1_n_n 512 rfl rfl k
  have el : dot_S2048x512_S512x16_S2048x16_1_0_0_1_n_n.lhsIdx (ix2 r c) ((contrEquiv1 dot_S2048x512_S512x16_S2048x16_1_0_0_1_n_n 512 rfl rfl).symm k) = ix2 r k :=
    funext fun a => Fin.ext (by
      match a with
      | ⟨0, _⟩ => exact lhs_gatherCap_0 _ _
      | ⟨1, _⟩ => exact (lhs_gatherCap_1 _ _).trans hk)
  have er : dot_S2048x512_S512x16_S2048x16_1_0_0_1_n_n.rhsIdx (ix2 r c) ((contrEquiv1 dot_S2048x512_S512x16_S2048x16_1_0_0_1_n_n 512 rfl rfl).symm k) = ix2 k c :=
    funext fun a => Fin.ext (by
      match a with
      | ⟨1, _⟩ => exact rhs_gatherCap_1 _ _
      | ⟨0, _⟩ => exact (rhs_gatherCap_0 _ _).trans hk)
  rw [el, er]

end Cert.KernelIdeal.Products

end
-- ==== Proof.LibRowReduce.lean ====
/-
  A REDUCTION ALONG THE ROWS OF A TABLE, KEPT AS A COLUMN, read at an element.

  A body reduces a block [R, D] over its second axis to a vector [R] and reshapes that to a column [R, 1]
  (a sum or a maximum "with the axis kept").  Read at (p, 0) the column is the vector at p; the vector at p is,
  for a sum, the sum over k < D of the block at (p, k), and for a maximum, the fold of max from the starting value
  over the same entries.  The index inserted at k into the reduced index (p) is (p, k).
-/
import Idealize.ShloMosaic.PureOps.Ideal
import Idealize.ShloMosaic.PureOps.Ideal.Laws
import Idealize.ShloMosaic.Lib.Pipeline.Value
import Idealize.ShloMosaic.Lib.ValueIdx

noncomputable section

namespace Cert.LibRowReduce

open Idealize.ShloMosaic Idealize.ShloMosaic.ValueIdx

/-- A vector [a] cast to a column [a, 1] reads, at (i, u), the vector at i, whatever the unit coordinate u. -/
theorem column_of_vector_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of the block that reduces into row p at position k of the reduced axis is (p, k). -/
theorem lift_row {R D : Nat} (h : (⟨2, ![R, D]⟩ : Shape).Reduces [1] ⟨1, ![R]⟩) (p : Fin R) (k : Fin D) :
    h.lift (ix1 p) k = ix2 p k := by
  funext a; apply Fin.ext
  match a with
  | ⟨0, _⟩ => rfl
  | ⟨1, _⟩ => rfl

/-- A sum over the second axis of a block, at row p: the sum over k of the block at (p, k). -/
theorem row_sum_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ)
    (p : Fin R) :
    multiReduction .add [1] ⟨1, ![R]⟩ src acc h hφ hacc (ix1 p) = ∑ k : Fin D, src (ix2 p k) := by
  refine (Ideal.multiReduction_add_single src acc h hφ hacc (ix1 p)).trans ?_
  show (∑ k : Fin D, src (h.lift (ix1 p) k)) = _
  exact Finset.sum_congr rfl fun k _ => congrArg src (lift_row h p k)

/-- A maximum over the second axis of a block, at row p: the fold of max, from the starting value, over the block's
    entries (p, k). -/
theorem row_max_apply {R D : Nat} {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ)
    (p : Fin R) :
    multiReduction .maximumf [1] ⟨1, ![R]⟩ src acc h hφ hacc (ix1 p)
      = (Finset.univ : Finset (Fin D)).fold max (Ideal.ofBits φ acc) (fun k => src (ix2 p k)) := by
  refine (Ideal.multiReduction_maximumf_single src acc h hφ hacc (ix1 p)).trans ?_
  show (Finset.univ : Finset (Fin D)).fold max (Ideal.ofBits φ acc) (src ∘ h.lift (ix1 p)) = _
  rw [show src ∘ h.lift (ix1 p) = fun k => src (ix2 p k) from funext fun k => congrArg src (lift_row h p k)]
  rfl

end Cert.LibRowReduce

end
-- ==== Proof.LibBlockOps.lean ====
/-
  A COLUMN AND A ROW SPREAD OVER A TABLE, read at an element.

  A kernel body scales the rows of a block `[R, D]` by a column `[R, 1]` and adds a row `[1, D]` to each of its rows; both
  operands are first spread to the block's shape. Read at `(p, q)` the spread column is the column's entry `(p, 0)` and the
  spread row is the row's entry `(0, q)`: a spread repeats the operand along each of its unit axes.
-/
import Idealize.ShloMosaic.Lib.Pipeline.Value
import Idealize.ShloMosaic.Lib.ValueIdx

noncomputable section

namespace Cert.LibBlockOps

open Idealize.ShloMosaic Idealize.ShloMosaic.ValueIdx

/-- The one index of a unit axis. -/
abbrev u1 : Fin 1 := ⟨0, Nat.one_pos⟩

/-- A column `[R, 1]` spread to `[R, D]`, read at `(p, q)`: the column at `(p, 0)`. -/
theorem col_apply {α : Type} {R D : Nat} (x : (⟨2, ![R, 1]⟩ : Shape).Idx → α)
    (h2 : (⟨2, ![R, 1]⟩ : Shape).Broadcasts ⟨2, ![R, D]⟩) (p : Fin R) (q : Fin D) :
    broadcastTo ⟨2, ![R, D]⟩ x h2 (ix2 p q) = x (ix2 p u1) := by
  refine broadcastTo_apply x h2 (ix2 p q) (ix2 p u1) fun a => ?_
  match a with
  | ⟨0, _⟩ =>
    show p.val = if R = 1 then 0 else p.val
    split
    · have := p.isLt; omega
    · rfl
  | ⟨1, _⟩ =>
    show 0 = if (1 : Nat) = 1 then 0 else q.val
    rw [if_pos rfl]

/-- A row `[1, D]` spread to `[R, D]`, read at `(p, q)`: the row at `(0, q)`. -/
theorem row_apply {α : Type} {R D : Nat} (x : (⟨2, ![1, D]⟩ : Shape).Idx → α)
    (h2 : (⟨2, ![1, D]⟩ : Shape).Broadcasts ⟨2, ![R, D]⟩) (p : Fin R) (q : Fin D) :
    broadcastTo ⟨2, ![R, D]⟩ x h2 (ix2 p q) = x (ix2 u1 q) := by
  refine broadcastTo_apply x h2 (ix2 p q) (ix2 u1 q) fun a => ?_
  match a with
  | ⟨0, _⟩ =>
    show 0 = if (1 : Nat) = 1 then 0 else p.val
    rw [if_pos rfl]
  | ⟨1, _⟩ =>
    show q.val = if D = 1 then 0 else q.val
    split
    · have := q.isLt; omega
    · rfl

end Cert.LibBlockOps

end
-- ==== Proof.Payload.lean ====
/-
  One round of the body's routing, read at an element of its row block.

  The body works on a block of 2048 rows. Its projections u = x · W lie flat in rows of 512; the logits b have 16
  entries per row. With the two 0/1 masks — G (i, k) = 1 exactly when position i belongs to capsule k, H (i, d) = 1
  exactly when position i holds coordinate d — the body computes, row by row,
    · the softmax weights of the logits (row maximum, shifted exponentials, their sum, the quotient);
    · the weights spread over the 512 positions (a product with G transposed: position i gets its capsule's weight),
      times u, gathered by coordinate (a product with H): the weighted mix of the capsules' predictions;
    · the squash of the mix;
    · the vote spread over the 512 positions (a product with H transposed), times u, gathered by capsule (a product
      with G): each capsule's agreement with the vote, added to its logit.
  Each stage is restated as a function of whole blocks, shown to be the printed payload by unfolding, and read at an
  element as the row function of the specification applied to the row's logits and the row of x · W.
-/
import proofs.«423242_j85693187490407_3_alg».proof.Proof.Gen.KernelIdeal.Skeleton
import proofs.«423242_j85693187490407_3_alg».proof.Proof.Routing
import proofs.«423242_j85693187490407_3_alg».proof.Proof.Products
import proofs.«423242_j85693187490407_3_alg».proof.Proof.LibRowReduce
import proofs.«423242_j85693187490407_3_alg».proof.Proof.LibBlockOps
import Idealize.ShloMosaic.Lib.Pipeline.Value
import Idealize.ShloMosaic.Lib.ValueIdx

noncomputable section

namespace Cert.KernelIdeal.Payload

open Cert.KernelIdeal Cert.KernelIdeal.Gen Idealize.ShloMosaic Idealize.ShloMosaic.ValueIdx Cert.Routing
open Cert.LibRowReduce Cert.LibBlockOps

/-- G: position i of the row of 512 belongs to capsule i / 32. -/
def IsCapMask (g : Vec Ideal S512x16 .f32) : Prop :=
  ∀ (i : Fin 512) (k : Fin 16), g (ix2 i k) = if i.val / 32 = k.val then (1 : EReal) else 0
/-- H: position i holds coordinate i % 32. -/
def IsDimMask (h : Vec Ideal S512x32 .f32) : Prop :=
  ∀ (i : Fin 512) (d : Fin 32), h (ix2 i d) = if i.val % 32 = d.val then (1 : EReal) else 0

variable (x0 : Vec Ideal S2048x512 .f32) (x1 : Vec Ideal S512x512 .f32) (x2 : Vec Ideal S512x16 .f32)
  (x3 : Vec Ideal S512x32 .f32)

/-! ## The three loaded operands as the body uses them -/

/-- The projection at (r, i): row r of x against column i of W. -/
theorem proj_apply (r : Fin 2048) (i : Fin 512) :
    k0_pay1 x0 x1 (ix2 r i) = ∑ j : Fin 512, x0 (ix2 r j) * x1 (ix2 j i) := by
  unfold k0_pay1
  exact Products.proj_apply _ _ r i

/-- The masks reach the products unchanged (a cast to their own shape, a change of format). -/
theorem capMask_eq : (k0_pay2 x2 : S512x16.Idx → EReal) = x2 := by
  unfold k0_pay2
  exact shapeCast_self x2 _
theorem dimMask_eq : (k0_pay3 x3 : S512x32.Idx → EReal) = x3 := by
  unfold k0_pay3
  exact shapeCast_self x3 _

/-! ## The stages as functions of whole blocks -/

/-- The logits' row maximum, spread back over the row. -/
def spreadMax (b : FVec Ideal S2048x16 .f32) : FVec Ideal S2048x16 .f32 :=
  broadcastTo S2048x16 (shapeCast S2048x1 (multiReduction .maximumf [1] S2048 b 0xFF800000#32 reduces_S2048x16_S2048 (.inl rfl) rfl) shapeCasts_S2048_S2048x1) broadcasts_S2048x1_S2048x16

/-- The shifted exponentials. -/
def expo (b : FVec Ideal S2048x16 .f32) : FVec Ideal S2048x16 .f32 := exp (subf b (spreadMax b))

/-- The softmax weights. -/
def coeff (b : FVec Ideal S2048x16 .f32) : FVec Ideal S2048x16 .f32 :=
  divf (expo b) (broadcastTo S2048x16 (shapeCast S2048x1 (multiReduction .add [1] S2048 (expo b) 0x00000000#32 reduces_S2048x16_S2048 (.inl rfl) rfl) shapeCasts_S2048_S2048x1) broadcasts_S2048x1_S2048x16)

/-- The weighted mix of the predictions. -/
def mixed (b : FVec Ideal S2048x16 .f32) : FVec Ideal S2048x32 .f32 :=
  matmul dot_S2048x512_S512x32_S2048x32_1_0_0_1_n_n none
    (truncf .bf16 (mulf (matmul dot_S2048x16_S512x16_S2048x512_1_1_0_0_n_n none (truncf .bf16 (coeff b) bitsLt_bf16_f32) (k0_pay2 x2) (constant S2048x512 .f32 0x00000000#32)) (k0_pay1 x0 x1)) bitsLt_bf16_f32)
    (k0_pay3 x3) (constant S2048x32 .f32 0x00000000#32)

/-- The squared length of each row, as a column. -/
def normCol (s : FVec Ideal S2048x32 .f32) : FVec Ideal S2048x1 .f32 :=
  shapeCast S2048x1 (multiReduction .add [1] S2048 (mulf s s) 0x00000000#32 reduces_S2048x32_S2048 (.inl rfl) rfl) shapeCasts_S2048_S2048x1

/-- The squash of each row. -/
def squashed (s : FVec Ideal S2048x32 .f32) : FVec Ideal S2048x32 .f32 :=
  divf (mulf (broadcastTo S2048x32 (divf (normCol s) (addf (broadcast S2048x1 (Scalar.ofBits .f32 0x3F800000#32)) (normCol s))) broadcasts_S2048x1_S2048x32) s)
    (broadcastTo S2048x32 (addf (sqrt (normCol s)) (broadcast S2048x1 (Scalar.ofBits .f32 0x322BCC77#32))) broadcasts_S2048x1_S2048x32)

/-- The capsules' agreement with a vote. -/
def agreement (v : FVec Ideal S2048x32 .f32) : FVec Ideal S2048x16 .f32 :=
  matmul dot_S2048x512_S512x16_S2048x16_1_0_0_1_n_n none
    (truncf .bf16 (mulf (k0_pay1 x0 x1) (matmul dot_S2048x32_S512x32_S2048x512_1_1_0_0_n_n none (truncf .bf16 v bitsLt_bf16_f32) (k0_pay3 x3) (constant S2048x512 .f32 0x00000000#32))) bitsLt_bf16_f32)
    (k0_pay2 x2) (constant S2048x16 .f32 0x00000000#32)

/-- The round's vote is the squashed mix; the next logits add the agreement with it. -/
theorem vote_eq (b : FVec Ideal S2048x16 .f32) : k0_pay6 x0 x1 x2 x3 b = squashed (mixed x0 x1 x2 x3 b) := rfl
theorem agree_eq (b : FVec Ideal S2048x16 .f32) :
    k0_pay7 x0 x1 x2 x3 b = addf b (agreement x0 x1 x2 x3 (k0_pay6 x0 x1 x2 x3 b)) := rfl

/-! ## The stages at an element -/

section
variable (b : FVec Ideal S2048x16 .f32) (r : Fin 2048)

theorem spreadMax_apply (k : Fin 16) : spreadMax b (ix2 r k) = rowMax fun k' => b (ix2 r k') := by
  unfold spreadMax
  rw [col_apply, column_of_vector_apply]
  exact row_max_apply b 0xFF800000#32 reduces_S2048x16_S2048 (.inl rfl) rfl r

theorem expo_apply (k : Fin 16) :
    expo b (ix2 r k) = Ideal.exp (b (ix2 r k) - rowMax fun k' => b (ix2 r k')) := by
  show Ideal.exp (b (ix2 r k) - spreadMax b (ix2 r k)) = _
  rw [spreadMax_apply]

theorem coeff_apply (k : Fin 16) : coeff b (ix2 r k) = weight (fun k' => b (ix2 r k')) k := by
  unfold coeff
  show Ideal.div (expo b (ix2 r k)) (broadcastTo S2048x16 _ broadcasts_S2048x1_S2048x16 (ix2 r k)) = _
  rw [col_apply, column_of_vector_apply]
  refine (congrArg (Ideal.div (expo b (ix2 r k)))
    (row_sum_apply (expo b) 0x00000000#32 reduces_S2048x16_S2048 (.inl rfl) rfl r)).trans ?_
  simp only [expo_apply]
  rfl

/-- The weights spread over the positions: position i carries its capsule's weight. -/
theorem spread_coeff_apply (hG : IsCapMask x2) (i : Fin 512) :
    matmul dot_S2048x16_S512x16_S2048x512_1_1_0_0_n_n none (truncf .bf16 (coeff b) bitsLt_bf16_f32) (k0_pay2 x2) (constant S2048x512 .f32 0x00000000#32) (ix2 r i)
      = weight (fun k' => b (ix2 r k')) (capOf i) := by
  rw [Products.spreadCap_apply, capMask_eq]
  refine Eq.trans (Finset.sum_congr rfl fun k _ => ?_) (sum_capMask_pos (weight fun k' => b (ix2 r k')) i)
  show coeff b (ix2 r k) * x2 (ix2 i k) = _
  rw [coeff_apply, hG i k]

theorem mixed_apply (hG : IsCapMask x2) (hH : IsDimMask x3) (d : Fin 32) :
    mixed x0 x1 x2 x3 b (ix2 r d) = blend (rowOf x0 x1 r) (fun k' => b (ix2 r k')) d := by
  unfold mixed
  rw [Products.gatherDim_apply, dimMask_eq]
  refine Eq.trans (Finset.sum_congr rfl fun i _ => ?_)
    (sum_pos_dimMask (fun i => weight (fun k' => b (ix2 r k')) (capOf i) * ∑ j : Fin 512, x0 (ix2 r j) * x1 (ix2 j i)) d) |>.trans ?_
  · show (matmul dot_S2048x16_S512x16_S2048x512_1_1_0_0_n_n none (truncf .bf16 (coeff b) bitsLt_bf16_f32) (k0_pay2 x2) (constant S2048x512 .f32 0x00000000#32) (ix2 r i)
        * k0_pay1 x0 x1 (ix2 r i)) * x3 (ix2 i d) = _
    rw [spread_coeff_apply x2 b r hG i, proj_apply, hH i d]
  · unfold blend rowOf
    exact Finset.sum_congr rfl fun k _ => by rw [capOf_slot]

end

section
variable (s : FVec Ideal S2048x32 .f32) (r : Fin 2048)

theorem normCol_apply (u : Fin 1) : normCol s (ix2 r u) = energy fun d' => s (ix2 r d') := by
  unfold normCol
  rw [column_of_vector_apply]
  exact row_sum_apply (mulf s s) 0x00000000#32 reduces_S2048x32_S2048 (.inl rfl) rfl r

theorem squashed_apply (d : Fin 32) : squashed s (ix2 r d) = squash (fun d' => s (ix2 r d')) d := by
  unfold squashed
  show Ideal.div (broadcastTo S2048x32 _ broadcasts_S2048x1_S2048x32 (ix2 r d) * s (ix2 r d))
    (broadcastTo S2048x32 _ broadcasts_S2048x1_S2048x32 (ix2 r d)) = _
  rw [col_apply, col_apply]
  show Ideal.div (Ideal.div (normCol s (ix2 r u1)) (Ideal.ofBits .f32 0x3F800000#32 + normCol s (ix2 r u1)) * s (ix2 r d))
    (Ideal.sqrt (normCol s (ix2 r u1)) + Ideal.ofBits .f32 0x322BCC77#32) = _
  rw [normCol_apply]
  rfl

end

/-! ## One round at an element -/

variable (b : FVec Ideal S2048x16 .f32) (r : Fin 2048)

/-- The round's vote on row r. -/
theorem vote_apply (hG : IsCapMask x2) (hH : IsDimMask x3) (d : Fin 32) :
    k0_pay6 x0 x1 x2 x3 b (ix2 r d) = vote (rowOf x0 x1 r) (fun k' => b (ix2 r k')) d := by
  rw [vote_eq, squashed_apply]
  exact congrArg (fun s => squash s d) (funext fun d' => mixed_apply x0 x1 x2 x3 b r hG hH d')

/-- A vote spread over the positions: position i carries its coordinate's entry. -/
theorem spread_vote_apply (hH : IsDimMask x3) (v : FVec Ideal S2048x32 .f32) (i : Fin 512) :
    matmul dot_S2048x32_S512x32_S2048x512_1_1_0_0_n_n none (truncf .bf16 v bitsLt_bf16_f32) (k0_pay3 x3) (constant S2048x512 .f32 0x00000000#32) (ix2 r i)
      = v (ix2 r (dimOf i)) := by
  rw [Products.spreadDim_apply, dimMask_eq]
  refine Eq.trans (Finset.sum_congr rfl fun d _ => ?_) (sum_dimMask_pos (fun d => v (ix2 r d)) i)
  show v (ix2 r d) * x3 (ix2 i d) = _
  rw [hH i d]

/-- The next logits on row r. -/
theorem agree_apply (hG : IsCapMask x2) (hH : IsDimMask x3) (k : Fin 16) :
    k0_pay7 x0 x1 x2 x3 b (ix2 r k) = agree (rowOf x0 x1 r) (fun k' => b (ix2 r k')) k := by
  rw [agree_eq]
  show b (ix2 r k) + agreement x0 x1 x2 x3 (k0_pay6 x0 x1 x2 x3 b) (ix2 r k) = _
  unfold agreement agree
  rw [Products.gatherCap_apply, capMask_eq]
  refine congrArg (b (ix2 r k) + ·) ?_
  refine Eq.trans (Finset.sum_congr rfl fun i _ => ?_)
    (sum_pos_capMask (fun i => (∑ j : Fin 512, x0 (ix2 r j) * x1 (ix2 j i)) * vote (rowOf x0 x1 r) (fun k' => b (ix2 r k')) (dimOf i)) k) |>.trans ?_
  · show (k0_pay1 x0 x1 (ix2 r i) * matmul dot_S2048x32_S512x32_S2048x512_1_1_0_0_n_n none (truncf .bf16 (k0_pay6 x0 x1 x2 x3 b) bitsLt_bf16_f32) (k0_pay3 x3) (constant S2048x512 .f32 0x00000000#32) (ix2 r i))
        * x2 (ix2 i k) = _
    rw [spread_vote_apply x3 r hH, proj_apply, vote_apply x0 x1 x2 x3 b r hG hH, hG i k]
  · unfold rowOf
    exact Finset.sum_congr rfl fun d _ => by rw [dimOf_slot]

/-- The zero logits the loop starts from. -/
theorem zero_apply (k : Fin 16) : (k0_pay4 : FVec Ideal S2048x16 .f32) (ix2 r k) = zeroLogits k := rfl

/-- Three rounds from zero logits, on row r: the block the body stores. -/
theorem three_rounds_apply (hG : IsCapMask x2) (hH : IsDimMask x3) (d : Fin 32) :
    k0_pay6 x0 x1 x2 x3 (k0_pay7 x0 x1 x2 x3 (k0_pay7 x0 x1 x2 x3 k0_pay4)) (ix2 r d)
      = routed (rowOf x0 x1 r) d := by
  rw [vote_apply x0 x1 x2 x3 _ r hG hH d]
  unfold routed
  refine congrArg (fun l => vote (rowOf x0 x1 r) l d) (funext fun k => ?_)
  rw [agree_apply x0 x1 x2 x3 _ r hG hH k]
  refine congrArg (fun l => agree (rowOf x0 x1 r) l k) (funext fun k' => ?_)
  rw [agree_apply x0 x1 x2 x3 _ r hG hH k']
  rfl

end Cert.KernelIdeal.Payload

end
-- ==== Proof.Output.lean ====
/-
  From the blocks to the array: what the kernel's run leaves in the result.

  The grid has 16 points; point t stages rows 2048·t … 2048·t + 2047 of x, all of W and both masks, and writes back
  rows 2048·t … 2048·t + 2047 of the result. The body's block at a row is three rounds of routing on that row of
  x · W; so what point t writes back is block t of the whole-array function `routedRows`: row R of the result is
  three rounds of routing on row R of x · W. The 16 blocks tile the result, so the array ends holding that function.
  The two masks are read through the hypotheses `hcap`, `hdim`: what the host wrote into them before the region.
-/
import proofs.«423242_j85693187490407_3_alg».proof.Proof.Gen.KernelIdeal.Value
import proofs.«423242_j85693187490407_3_alg».proof.Proof.Routing
import proofs.«423242_j85693187490407_3_alg».proof.Proof.Rounds
import proofs.«423242_j85693187490407_3_alg».proof.Proof.Payload
import Idealize.ShloMosaic.Lib.Pipeline.Value
import Idealize.ShloMosaic.Lib.ValueIdx

noncomputable section

namespace Cert.KernelIdeal.Output

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row R of the result: three rounds of routing on row R of x · W. -/
def routedRows (x : S32768x512.Idx → EReal) (w : S512x512.Idx → EReal) : S32768x32.Idx → EReal :=
  fun j => Cert.Routing.routed (Cert.Routing.rowOf (R := 32768) x w (j 0)) (j 1)

/-- The four input blocks at a grid point, at their literal types. -/
abbrev xblk (c : Dev nD) (t : Fin cfg0.N) : Vec Ideal S2048x512 .f32 := iblk m c 0 t
abbrev wblk (c : Dev nD) (t : Fin cfg0.N) : Vec Ideal S512x512 .f32 := iblk m c 1 t
abbrev gblk (c : Dev nD) (t : Fin cfg0.N) : Vec Ideal S512x16 .f32 := iblk m c 2 t
abbrev hblk (c : Dev nD) (t : Fin cfg0.N) : Vec Ideal S512x32 .f32 := iblk m c 3 t

/-- The printed index maps over the grid: x and the result move with the point, the rest stay. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 ∧ t.val < 16 :=
  (by decide +kernel : ∀ t : Fin grid0.N, _)

/-- Point t's block of x is rows 2048·t … of x. -/
theorem xblk_apply (c : Dev nD) (t : Fin cfg0.N) (r : Fin 2048) (j : Fin 512) (R : Fin 32768)
    (hR : R.val = 2048 * t.val + r.val) :
    xblk m c t (ix2 r j) = (m ((c : Thread nD τ).loc main_arg0) : S32768x512.Idx → EReal) (ix2 R j) := by
  obtain ⟨e0, e1, -⟩ := index_facts t
  unfold xblk iblk
  rw [View.read_apply]
  show V m c main_arg0 _ = _
  rw [V_main_arg0]
  refine congrArg _ (funext fun a => Fin.ext ?_)
  match a with
  | ⟨0, _⟩ => show win0_0.index t (0 : Fin 2) * 2048 + 1 * r.val = R.val; rw [e0, hR]; omega
  | ⟨1, _⟩ => show win0_0.index t (1 : Fin 2) * 512 + 1 * j.val = j.val; rw [e1]; omega

/-- Every point stages all of W, -/
theorem wblk_eq (c : Dev nD) (t : Fin cfg0.N) :
    wblk m c t = (m ((c : Thread nD τ).loc main_arg1) : S512x512.Idx → EReal) := by
  obtain ⟨-, -, e0, e1, -⟩ := index_facts t
  funext y
  unfold wblk iblk
  rw [View.read_apply]
  show V m c main_arg1 _ = _
  rw [V_main_arg1]
  refine congrArg _ (funext fun a => Fin.ext ?_)
  match a with
  | ⟨0, _⟩ => show win0_1.index t (0 : Fin 2) * 512 + 1 * (y 0).val = (y 0).val; rw [e0]; omega
  | ⟨1, _⟩ => show win0_1.index t (1 : Fin 2) * 512 + 1 * (y 1).val = (y 1).val; rw [e1]; omega

/-- all of the capsule mask, -/
theorem gblk_eq (c : Dev nD) (t : Fin cfg0.N) : gblk m c t = (V m c main_v9 : S512x16.Idx → EReal) := by
  obtain ⟨-, -, -, -, e0, e1, -⟩ := index_facts t
  funext y
  unfold gblk iblk
  rw [View.read_apply]
  show V m c main_v9 _ = _
  refine congrArg _ (funext fun a => Fin.ext ?_)
  match a with
  | ⟨0, _⟩ => show win0_2.index t (0 : Fin 2) * 512 + 1 * (y 0).val = (y 0).val; rw [e0]; omega
  | ⟨1, _⟩ => show win0_2.index t (1 : Fin 2) * 16 + 1 * (y 1).val = (y 1).val; rw [e1]; omega

/-- and all of the coordinate mask. -/
theorem hblk_eq (c : Dev nD) (t : Fin cfg0.N) : hblk m c t = (V m c main_v16 : S512x32.Idx → EReal) := by
  obtain ⟨-, -, -, -, -, -, e0, e1, -⟩ := index_facts t
  funext y
  unfold hblk iblk
  rw [View.read_apply]
  show V m c main_v16 _ = _
  refine congrArg _ (funext fun a => Fin.ext ?_)
  match a with
  | ⟨0, _⟩ => show win0_3.index t (0 : Fin 2) * 512 + 1 * (y 0).val = (y 0).val; rw [e0]; omega
  | ⟨1, _⟩ => show win0_3.index t (1 : Fin 2) * 32 + 1 * (y 1).val = (y 1).val; rw [e1]; omega

/-- An index of the result is in point t's block iff each coordinate is in the block's range on its axis. -/
theorem mem_blk (t : Fin cfg0.N) (i : S32768x32.Idx) :
    i ∈ ((cfg0.win 4).blk t).view.set ↔ ∀ a : Fin 2, win0_4.index t a * S2048x32.size a ≤ (i a).val ∧ (i a).val < win0_4.index t a * S2048x32.size a + S2048x32.size a := by
  show i ∈ ((View.whole main_v17).slice (win0_4.rect t)).set ↔ _
  rw [View.set_slice_whole, Rect.mem_set_unit]
  exact Iff.rfl

/-- Every row of the result is in the block of the point `row / 2048`. -/
theorem cover (i : S32768x32.Idx) :
    ∃ t : Fin cfg0.N, (cfg0.win 4).flush t = true ∧ i ∈ ((cfg0.win 4).blk t).view.set := by
  have hi0 : (i 0).val < 32768 := (i 0).isLt
  have hi1 : (i 1).val < 32 := (i 1).isLt
  have hN : cfg0.N = 16 := N_0
  have hlt : (i 0).val / 2048 < cfg0.N := by rw [hN]; omega
  obtain ⟨-, -, -, -, -, -, -, -, e0, e1, -⟩ := index_facts ⟨(i 0).val / 2048, hlt⟩
  refine ⟨⟨(i 0).val / 2048, hlt⟩, flush0_4 _, ?_⟩
  rw [mem_blk]
  intro a
  match a with
  | ⟨0, _⟩ =>
    show win0_4.index ⟨(i 0).val / 2048, hlt⟩ (0 : Fin 2) * 2048 ≤ (i 0).val ∧ (i 0).val < win0_4.index ⟨(i 0).val / 2048, hlt⟩ (0 : Fin 2) * 2048 + 2048
    rw [e0]; show (i 0).val / 2048 * 2048 ≤ (i 0).val ∧ (i 0).val < (i 0).val / 2048 * 2048 + 2048; omega
  | ⟨1, _⟩ =>
    show win0_4.index ⟨(i 0).val / 2048, hlt⟩ (1 : Fin 2) * 32 ≤ (i 1).val ∧ (i 1).val < win0_4.index ⟨(i 0).val / 2048, hlt⟩ (1 : Fin 2) * 32 + 32
    rw [e1]; omega

section
variable (hcap : ∀ (c : Dev nD) (i : Fin 512) (k : Fin 16),
    (V m c main_v9 : S512x16.Idx → EReal) (ix2 i k) = if i.val / 32 = k.val then (1 : EReal) else 0)
  (hdim : ∀ (c : Dev nD) (i : Fin 512) (d : Fin 32),
    (V m c main_v16 : S512x32.Idx → EReal) (ix2 i d) = if i.val % 32 = d.val then (1 : EReal) else 0)
include hcap hdim

/-- What point t writes back is block t of the rows' routing. -/
theorem flushed_eq (c : Dev nD) (t : Fin cfg0.N) :
    (dats m 0 c).flushed 4 t = ((cfg0.win 4).blk t).view.read (Elt Ideal)
      (routedRows (m ((c : Thread nD τ).loc main_arg0)) (m ((c : Thread nD τ).loc main_arg1))) := by
  rw [Cert.KernelIdeal.Value.flushed4_A, Rounds.out_eq]
  obtain ⟨-, -, -, -, -, -, -, -, e0, e1, ht⟩ := index_facts t
  have hG : Payload.IsCapMask (gblk m c t) := fun i k => by rw [gblk_eq]; exact hcap c i k
  have hH : Payload.IsDimMask (hblk m c t) := fun i d => by rw [hblk_eq]; exact hdim c i d
  refine funext fun (j : S2048x32.Idx) => ?_
  obtain ⟨r, d, rfl⟩ : ∃ (r : Fin 2048) (d : Fin 32), j = ix2 r d := ⟨j 0, j 1, eq_ix2 j⟩
  have hr : r.val < 2048 := r.isLt
  let R : Fin 32768 := ⟨2048 * t.val + r.val, by omega⟩
  have hJ : ((cfg0.win 4).blk t).view.emb (ix2 r d) = (ix2 R d : S32768x32.Idx) := by
    funext a; apply Fin.ext
    match a with
    | ⟨0, _⟩ => show win0_4.index t (0 : Fin 2) * 2048 + 1 * r.val = 2048 * t.val + r.val; rw [e0]; omega
    | ⟨1, _⟩ => show win0_4.index t (1 : Fin 2) * 32 + 1 * d.val = d.val; rw [e1]; omega
  show k0_pay6 (xblk m c t) (wblk m c t) (gblk m c t) (hblk m c t)
      (k0_pay7 (xblk m c t) (wblk m c t) (gblk m c t) (hblk m c t)
        (k0_pay7 (xblk m c t) (wblk m c t) (gblk m c t) (hblk m c t) k0_pay4)) (ix2 r d)
    = routedRows (m ((c : Thread nD τ).loc main_arg0)) (m ((c : Thread nD τ).loc main_arg1))
        (((cfg0.win 4).blk t).view.emb (ix2 r d))
  rw [Payload.three_rounds_apply (xblk m c t) (wblk m c t) (gblk m c t) (hblk m c t) r hG hH d, hJ]
  show Cert.Routing.routed (Cert.Routing.rowOf (xblk m c t) (wblk m c t) r) d
    = Cert.Routing.routed (Cert.Routing.rowOf (R := 32768) (m ((c : Thread nD τ).loc main_arg0)) (m ((c : Thread nD τ).loc main_arg1)) R) d
  refine congrArg (fun u => Cert.Routing.routed u d) (funext fun k => funext fun d' => ?_)
  unfold Cert.Routing.rowOf
  refine Finset.sum_congr rfl fun j _ => ?_
  rw [xblk_apply m c t r j R rfl, wblk_eq]

/-- The result array after the run. -/
theorem final (c : Dev nD) : (dats m 0 c).arrAt 4 cfg0.N
    = routedRows (m ((c : Thread nD τ).loc main_arg0)) (m ((c : Thread nD τ).loc main_arg1)) :=
  (dats m 0 c).arrAt_eq_of_cover 4 _ (fun t _ => flushed_eq m hcap hdim c t) cover

/-- The kernel's run, read: the result at the rows' routing, the arguments unchanged. -/
theorem run : θ_run defs (onTc (τ := τ) (main (F := Ideal))) ⟨m, fun _ => 0, ρ⟩ fun r => ∀ c : Dev nD,
      r.2.mem ((c : Thread nD τ).loc main_v17)
        = routedRows (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m hcap hdim c), (h c).2⟩)
    (Cert.KernelIdeal.Value.run_blocks m ρ)

end

end Cert.KernelIdeal.Output

end
-- ==== Proof.RefValue.lean ====
/-
  The reference's result, read at an index.

  The reference computes, for each of the 32768 rows of the batch, three rounds of routing between capsules on the
  row's 16 × 32 table of predictions, which is the row of the product x · W regrouped (position 32·k + d of the row
  of 512 is capsule k's coordinate d). Its run leaves the result as one composed term over named terms, one per stage
  of a round, and the three rounds have the same shape. So each stage is written here once as a function of whole
  arrays — the exponentials of the logits shifted by the row's maximum; the mix of the normalised exponentials and the
  table; the squared length of the mix, as a column; the squashed vote; the next logits — and each is read at an index
  as the corresponding row function applied to the operands' rows: an elementwise operation reads through, a
  broadcast re-indexes, a sum along one axis is the finite sum over that axis's coordinates, the row maximum is the
  fold of `max` from -∞ (and the extra maximum against -∞ around it is the identity, -∞ being the bottom of the
  extended reals), and the product contracts its one shared axis. A round on a row whose logits are β and whose table
  is υ then gives the vote `vote υ β` and the next logits `agree υ β`; three rounds from the zero logits give the result.
-/
import proofs.«423242_j85693187490407_3_alg».proof.Proof.Gen.ReferenceIdeal.Run
import proofs.«423242_j85693187490407_3_alg».proof.Proof.Routing
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Value Idealize.ShloMosaic Idealize.ShloMosaic.TcCoe Idealize.SL.Sem Idealize.ShloMosaic.StableHlo Idealize.ShloMosaic.ValueIdx

/-- The exponentials of the logits, each row shifted by its maximum. -/
def expStage (b : FVec Ideal S32768x16 .f32) : FVec Ideal S32768x16 .f32 :=
  Host.exp (subf b (broadcastInDim S32768x16 ![0, 1] bcast_S32768x1_S32768x16_0_1 (broadcastInDim S32768x1 ![0] bcast_S32768_S32768x1_0 (maximumf (broadcastInDim S32768 ![] bcast_S_S32768 (constant S_ .f32 0xFF800000#32)) (Host.reduce FloatOps.maximumf b (constant S_ .f32 0xFF800000#32) reducesTo_S32768x16_S32768_d1 h_S_)))))

/-- The mix: the exponentials normalised along each row, times the table, summed over the capsules. -/
def mixStage (e : FVec Ideal S32768x16 .f32) (u : FVec Ideal S32768x16x32 .f32) : FVec Ideal S32768x32 .f32 :=
  Host.reduceAdd (mulf (broadcastInDim S32768x16x32 ![0, 1, 2] bcast_S32768x16x1_S32768x16x32_0_1_2 (broadcastInDim S32768x16x1 ![0, 1] bcast_S32768x16_S32768x16x1_0_1 (Host.divf e (broadcastInDim S32768x16 ![0, 1] bcast_S32768x1_S32768x16_0_1 (broadcastInDim S32768x1 ![0] bcast_S32768_S32768x1_0 (Host.reduceAdd e (constant S_ .f32 0x00000000#32) reducesTo_S32768x16_S32768_d1 h_S_)))))) u) (constant S_ .f32 0x00000000#32) reducesTo_S32768x16x32_S32768x32_d1 h_S_

/-- The squared length of each row of the mix, as a column. -/
def lenStage (s : FVec Ideal S32768x32 .f32) : FVec Ideal S32768x1 .f32 :=
  broadcastInDim S32768x1 ![0] bcast_S32768_S32768x1_0 (Host.reduceAdd (mulf s s) (constant S_ .f32 0x00000000#32) reducesTo_S32768x32_S32768_d1 h_S_)

/-- The squashed vote of the squared-length column and the mix. -/
def voteStage (n : FVec Ideal S32768x1 .f32) (s : FVec Ideal S32768x32 .f32) : FVec Ideal S32768x32 .f32 :=
  Host.divf (mulf (broadcastInDim S32768x32 ![0, 1] bcast_S32768x1_S32768x32_0_1 (Host.divf n (addf (broadcastInDim S32768x1 ![] bcast_S_S32768x1 (constant S_ .f32 0x3F800000#32)) n))) s) (broadcastInDim S32768x32 ![0, 1] bcast_S32768x1_S32768x32_0_1 (addf (Host.sqrt n) (broadcastInDim S32768x1 ![] bcast_S_S32768x1 (constant S_ .f32 0x322BCC77#32))))

/-- The next logits: each capsule's agreement with the vote, added. -/
def nextStage (b : FVec Ideal S32768x16 .f32) (u : FVec Ideal S32768x16x32 .f32) (v : FVec Ideal S32768x32 .f32) : FVec Ideal S32768x16 .f32 :=
  addf b (Host.reduceAdd (mulf u (broadcastInDim S32768x16x32 ![0, 1, 2] bcast_S32768x1x32_S32768x16x32_0_1_2 (broadcastInDim S32768x1x32 ![0, 2] bcast_S32768x32_S32768x1x32_0_2 v))) (constant S_ .f32 0x00000000#32) reducesTo_S32768x16x32_S32768x16_d2 h_S_)

variable (V0 : Valuation τ sig (Elt Ideal))

theorem v9_eq : res_main_v9 V0 = expStage (res_main_v2 V0) := rfl
theorem v17_eq : res_main_v17 V0 = mixStage (res_main_v9 V0) (res_main_v1 V0) := rfl
theorem v20_eq : res_main_v20 V0 = lenStage (res_main_v17 V0) := rfl
theorem v35_eq : res_main_v35 V0 = nextStage (res_main_v2 V0) (res_main_v1 V0) (voteStage (res_main_v20 V0) (res_main_v17 V0)) := rfl
theorem v42_eq : res_main_v42 V0 = expStage (res_main_v35 V0) := rfl
theorem v50_eq : res_main_v50 V0 = mixStage (res_main_v42 V0) (res_main_v1 V0) := rfl
theorem v53_eq : res_main_v53 V0 = lenStage (res_main_v50 V0) := rfl
theorem v68_eq : res_main_v68 V0 = nextStage (res_main_v35 V0) (res_main_v1 V0) (voteStage (res_main_v53 V0) (res_main_v50 V0)) := rfl
theorem v75_eq : res_main_v75 V0 = expStage (res_main_v68 V0) := rfl
theorem v83_eq : res_main_v83 V0 = mixStage (res_main_v75 V0) (res_main_v1 V0) := rfl
theorem v86_eq : res_main_v86 V0 = lenStage (res_main_v83 V0) := rfl

/-! ## The pieces read at an index -/

/-- A row's maximum as the host folds it is the row function's maximum. -/
theorem rowMax_apply (b : FVec Ideal S32768x16 .f32) (r : Fin 32768) :
    Host.reduce FloatOps.maximumf b (constant S_ .f32 0xFF800000#32) reducesTo_S32768x16_S32768_d1 h_S_ (ix1 r)
      = Cert.Routing.rowMax (fun k => b (ix2 r k)) := by
  rw [Host.reduce_eq_fold_single FloatOps.maximumf b _ reducesTo_S32768x16_S32768_d1 (by decide) h_S_ (ix1 r)]
  unfold Cert.Routing.rowMax
  refine congrArg (fun g : Fin 16 → EReal => (Finset.univ : Finset (Fin 16)).fold max (Ideal.ofBits .f32 0xFF800000#32) g) ?_
  funext k
  exact congrArg b (funext fun a => Fin.ext (by match a with | ⟨0, _⟩ => rfl | ⟨1, _⟩ => rfl))

/-- A host sum along the second axis of a [32768, 16] array, from zero. -/
theorem sum16_apply (e : FVec Ideal S32768x16 .f32) (r : Fin 32768) :
    Host.reduceAdd e (constant S_ .f32 0x00000000#32) reducesTo_S32768x16_S32768_d1 h_S_ (ix1 r)
      = ∑ k : Fin 16, e (ix2 r k) := by
  simp only [Host.reduceAdd, Ideal.hostReduceAdd_def]
  rw [Ideal.hostReduceAdd_single reducesTo_S32768x16_S32768_d1 (by decide)]
  rw [constant_apply, Ideal.ofBits_zero_f32, zero_add]
  refine Finset.sum_congr rfl fun k _ => ?_
  exact congrArg e (funext fun a => Fin.ext (by match a with | ⟨0, _⟩ => rfl | ⟨1, _⟩ => rfl))

/-- A host sum along the second axis of a [32768, 32] array, from zero. -/
theorem sum32_apply (s : FVec Ideal S32768x32 .f32) (r : Fin 32768) :
    Host.reduceAdd s (constant S_ .f32 0x00000000#32) reducesTo_S32768x32_S32768_d1 h_S_ (ix1 r)
      = ∑ d : Fin 32, s (ix2 r d) := by
  simp only [Host.reduceAdd, Ideal.hostReduceAdd_def]
  rw [Ideal.hostReduceAdd_single reducesTo_S32768x32_S32768_d1 (by decide)]
  rw [constant_apply, Ideal.ofBits_zero_f32, zero_add]
  refine Finset.sum_congr rfl fun k _ => ?_
  exact congrArg s (funext fun a => Fin.ext (by match a with | ⟨0, _⟩ => rfl | ⟨1, _⟩ => rfl))

/-- A host sum over the capsules (the middle axis) of a [32768, 16, 32] array, from zero. -/
theorem sumCaps_apply (p : FVec Ideal S32768x16x32 .f32) (r : Fin 32768) (d : Fin 32) :
    Host.reduceAdd p (constant S_ .f32 0x00000000#32) reducesTo_S32768x16x32_S32768x32_d1 h_S_ (ix2 r d)
      = ∑ k : Fin 16, p (ix3 r k d) := by
  simp only [Host.reduceAdd, Ideal.hostReduceAdd_def]
  rw [Ideal.hostReduceAdd_single reducesTo_S32768x16x32_S32768x32_d1 (by decide)]
  rw [constant_apply, Ideal.ofBits_zero_f32, zero_add]
  refine Finset.sum_congr rfl fun k _ => ?_
  exact congrArg p (funext fun a => Fin.ext (by match a with | ⟨0, _⟩ => rfl | ⟨1, _⟩ => rfl | ⟨2, _⟩ => rfl))

/-- A host sum over the coordinates (the last axis) of a [32768, 16, 32] array, from zero. -/
theorem sumDims_apply (p : FVec Ideal S32768x16x32 .f32) (r : Fin 32768) (k : Fin 16) :
    Host.reduceAdd p (constant S_ .f32 0x00000000#32) reducesTo_S32768x16x32_S32768x16_d2 h_S_ (ix2 r k)
      = ∑ d : Fin 32, p (ix3 r k d) := by
  simp only [Host.reduceAdd, Ideal.hostReduceAdd_def]
  rw [Ideal.hostReduceAdd_single reducesTo_S32768x16x32_S32768x16_d2 (by decide)]
  rw [constant_apply, Ideal.ofBits_zero_f32, zero_add]
  refine Finset.sum_congr rfl fun d _ => ?_
  exact congrArg p (funext fun a => Fin.ext (by match a with | ⟨0, _⟩ => rfl | ⟨1, _⟩ => rfl | ⟨2, _⟩ => rfl))

/-! ## The broadcasts read at an index -/

/-- A vector of row values made a column. -/
theorem col_apply (m : FVec Ideal S32768 .f32) (r : Fin 32768) (z : Fin 1) :
    broadcastInDim S32768x1 ![0] bcast_S32768_S32768x1_0 m (ix2 r z) = m (ix1 r) :=
  broadcastInDim_apply _ bcast_S32768_S32768x1_0 m _ _ fun a => match a with
    | ⟨0, _⟩ => by show r.val = if (32768 : Nat) = 1 then 0 else r.val; rw [if_neg (by decide)]

/-- A column spread along 16 capsules. -/
theorem spread16_apply (c : FVec Ideal S32768x1 .f32) (r : Fin 32768) (k : Fin 16) :
    broadcastInDim S32768x16 ![0, 1] bcast_S32768x1_S32768x16_0_1 c (ix2 r k) = c (ix2 r (0 : Fin 1)) :=
  broadcastInDim_apply _ bcast_S32768x1_S32768x16_0_1 c _ _ fun a => match a with
    | ⟨0, _⟩ => by show r.val = if (32768 : Nat) = 1 then 0 else r.val; rw [if_neg (by decide)]
    | ⟨1, _⟩ => by show (0 : Nat) = if (1 : Nat) = 1 then 0 else k.val; rw [if_pos rfl]

/-- A column spread along 32 coordinates. -/
theorem spread32_apply (c : FVec Ideal S32768x1 .f32) (r : Fin 32768) (d : Fin 32) :
    broadcastInDim S32768x32 ![0, 1] bcast_S32768x1_S32768x32_0_1 c (ix2 r d) = c (ix2 r (0 : Fin 1)) :=
  broadcastInDim_apply _ bcast_S32768x1_S32768x32_0_1 c _ _ fun a => match a with
    | ⟨0, _⟩ => by show r.val = if (32768 : Nat) = 1 then 0 else r.val; rw [if_neg (by decide)]
    | ⟨1, _⟩ => by show (0 : Nat) = if (1 : Nat) = 1 then 0 else d.val; rw [if_pos rfl]

/-- A [32768, 16] array given a trailing unit axis. -/
theorem unitLast_apply (w : FVec Ideal S32768x16 .f32) (r : Fin 32768) (k : Fin 16) (z : Fin 1) :
    broadcastInDim S32768x16x1 ![0, 1] bcast_S32768x16_S32768x16x1_0_1 w (ix3 r k z) = w (ix2 r k) :=
  broadcastInDim_apply _ bcast_S32768x16_S32768x16x1_0_1 w _ _ fun a => match a with
    | ⟨0, _⟩ => by show r.val = if (32768 : Nat) = 1 then 0 else r.val; rw [if_neg (by decide)]
    | ⟨1, _⟩ => by show k.val = if (16 : Nat) = 1 then 0 else k.val; rw [if_neg (by decide)]

/-- The trailing unit axis spread along 32 coordinates. -/
theorem spreadLast_apply (w : FVec Ideal S32768x16x1 .f32) (r : Fin 32768) (k : Fin 16) (d : Fin 32) :
    broadcastInDim S32768x16x32 ![0, 1, 2] bcast_S32768x16x1_S32768x16x32_0_1_2 w (ix3 r k d) = w (ix3 r k (0 : Fin 1)) :=
  broadcastInDim_apply _ bcast_S32768x16x1_S32768x16x32_0_1_2 w _ _ fun a => match a with
    | ⟨0, _⟩ => by show r.val = if (32768 : Nat) = 1 then 0 else r.val; rw [if_neg (by decide)]
    | ⟨1, _⟩ => by show k.val = if (16 : Nat) = 1 then 0 else k.val; rw [if_neg (by decide)]
    | ⟨2, _⟩ => by show (0 : Nat) = if (1 : Nat) = 1 then 0 else d.val; rw [if_pos rfl]

/-- A [32768, 32] array given a middle unit axis. -/
theorem unitMid_apply (v : FVec Ideal S32768x32 .f32) (r : Fin 32768) (z : Fin 1) (d : Fin 32) :
    broadcastInDim S32768x1x32 ![0, 2] bcast_S32768x32_S32768x1x32_0_2 v (ix3 r z d) = v (ix2 r d) :=
  broadcastInDim_apply _ bcast_S32768x32_S32768x1x32_0_2 v _ _ fun a => match a with
    | ⟨0, _⟩ => by show r.val = if (32768 : Nat) = 1 then 0 else r.val; rw [if_neg (by decide)]
    | ⟨1, _⟩ => by show d.val = if (32 : Nat) = 1 then 0 else d.val; rw [if_neg (by decide)]

/-- The middle unit axis spread along 16 capsules. -/
theorem spreadMid_apply (v : FVec Ideal S32768x1x32 .f32) (r : Fin 32768) (k : Fin 16) (d : Fin 32) :
    broadcastInDim S32768x16x32 ![0, 1, 2] bcast_S32768x1x32_S32768x16x32_0_1_2 v (ix3 r k d) = v (ix3 r (0 : Fin 1) d) :=
  broadcastInDim_apply _ bcast_S32768x1x32_S32768x16x32_0_1_2 v _ _ fun a => match a with
    | ⟨0, _⟩ => by show r.val = if (32768 : Nat) = 1 then 0 else r.val; rw [if_neg (by decide)]
    | ⟨1, _⟩ => by show (0 : Nat) = if (1 : Nat) = 1 then 0 else k.val; rw [if_pos rfl]
    | ⟨2, _⟩ => by show d.val = if (32 : Nat) = 1 then 0 else d.val; rw [if_neg (by decide)]

/-! ## The stages read at an index -/

/-- Minus infinity is the bottom of the extended reals. -/
theorem negInf_eq_bot : Ideal.ofBits .f32 0xFF800000#32 = (⊥ : EReal) := by
  simp [Ideal.ofBits, Ideal.ieee]

/-- The shifted exponentials of row `r`. -/
theorem expStage_apply (b : FVec Ideal S32768x16 .f32) (r : Fin 32768) (k : Fin 16) :
    expStage b (ix2 r k)
      = Ideal.exp (b (ix2 r k) - Cert.Routing.rowMax (fun k' => b (ix2 r k'))) := by
  unfold expStage
  show Ideal.exp (b (ix2 r k) - _) = _
  rw [spread16_apply, col_apply, maximumf_apply, rowMax_apply]
  have h0 : broadcastInDim S32768 ![] bcast_S_S32768 (constant (F := Ideal) S_ .f32 0xFF800000#32) (ix1 r) = (⊥ : EReal) :=
    negInf_eq_bot
  rw [h0, max_eq_right bot_le]

/-- The host's division, exponential and square root at an index are the extended reals'. -/
theorem hdivf_apply {s : Shape} {φ : FTy} (a b : FVec Ideal s φ) (i : s.Idx) : Host.divf a b i = Ideal.div (a i) (b i) := rfl
theorem hexp_apply {s : Shape} {φ : FTy} (a : FVec Ideal s φ) (i : s.Idx) : Host.exp a i = Ideal.exp (a i) := rfl
theorem hsqrt_apply {s : Shape} {φ : FTy} (a : FVec Ideal s φ) (i : s.Idx) : Host.sqrt a i = Ideal.sqrt (a i) := rfl
/-- A scalar constant spread over a column reads the constant. -/
theorem constCol_apply (w : BitVec 32) (r : Fin 32768) (z : Fin 1) :
    broadcastInDim S32768x1 ![] bcast_S_S32768x1 (constant (F := Ideal) S_ .f32 w) (ix2 r z) = Ideal.ofBits .f32 w := rfl

/-- The mix of row `r`, coordinate `d`: the normalised exponentials times the table, summed over the capsules. -/
theorem mixStage_apply (e : FVec Ideal S32768x16 .f32) (u : FVec Ideal S32768x16x32 .f32) (r : Fin 32768) (d : Fin 32) :
    mixStage e u (ix2 r d)
      = ∑ k : Fin 16, Ideal.div (e (ix2 r k)) (∑ k' : Fin 16, e (ix2 r k')) * u (ix3 r k d) := by
  unfold mixStage
  rw [sumCaps_apply]
  refine Finset.sum_congr rfl fun k _ => ?_
  rw [mulf_apply, spreadLast_apply, unitLast_apply, hdivf_apply, spread16_apply, col_apply, sum16_apply]

/-- The squared length of row `r` of the mix. -/
theorem lenStage_apply (s : FVec Ideal S32768x32 .f32) (r : Fin 32768) (z : Fin 1) :
    lenStage s (ix2 r z) = Cert.Routing.energy (fun d => s (ix2 r d)) := by
  unfold lenStage
  rw [col_apply, sum32_apply]
  rfl

/-- The squashed vote of row `r`, coordinate `d`. -/
theorem voteStage_apply (n : FVec Ideal S32768x1 .f32) (s : FVec Ideal S32768x32 .f32) (r : Fin 32768) (d : Fin 32) :
    voteStage n s (ix2 r d)
      = Ideal.div (Ideal.div (n (ix2 r (0 : Fin 1))) (Ideal.ofBits .f32 0x3F800000#32 + n (ix2 r (0 : Fin 1))) * s (ix2 r d))
          (Ideal.sqrt (n (ix2 r (0 : Fin 1))) + Ideal.ofBits .f32 0x322BCC77#32) := by
  unfold voteStage
  rw [hdivf_apply, mulf_apply, spread32_apply, spread32_apply, hdivf_apply, addf_apply, addf_apply, hsqrt_apply,
    constCol_apply, constCol_apply]

/-- The next logits of row `r`, capsule `k`. -/
theorem nextStage_apply (b : FVec Ideal S32768x16 .f32) (u : FVec Ideal S32768x16x32 .f32) (v : FVec Ideal S32768x32 .f32)
    (r : Fin 32768) (k : Fin 16) :
    nextStage b u v (ix2 r k) = b (ix2 r k) + ∑ d : Fin 32, u (ix3 r k d) * v (ix2 r d) := by
  unfold nextStage
  rw [addf_apply, sumDims_apply]
  refine congrArg (b (ix2 r k) + ·) (Finset.sum_congr rfl fun d _ => ?_)
  rw [mulf_apply, spreadMid_apply, unitMid_apply]

/-! ## The table: rows of the product, regrouped into 16 capsules of 32 coordinates -/

theorem lhs_ax0 (i : S32768x512.Idx) (q : dot_S32768x512_S512x512_S32768x512_1_0_0_1_n_n.contr.Idx) :
    (dot_S32768x512_S512x512_S32768x512_1_0_0_1_n_n.lhsIdx i q 0).val = (i 0).val := by
  unfold DotDims.lhsIdx
  rw [dif_neg (show ¬(0 : Fin S32768x512.rank) ∈ dot_S32768x512_S512x512_S32768x512_1_0_0_1_n_n.lhsBatch by decide), dif_pos (show (0 : Fin S32768x512.rank) ∈ dot_S32768x512_S512x512_S32768x512_1_0_0_1_n_n.lhsNonContracting by decide)]
  rfl
theorem lhs_ax1 (i : S32768x512.Idx) (q : dot_S32768x512_S512x512_S32768x512_1_0_0_1_n_n.contr.Idx) :
    (dot_S32768x512_S512x512_S32768x512_1_0_0_1_n_n.lhsIdx i q 1).val = (q ⟨0, by decide⟩).val :=
  dot_S32768x512_S512x512_S32768x512_1_0_0_1_n_n.lhsIdx_val_of_single rfl i q
theorem rhs_ax0 (i : S32768x512.Idx) (q : dot_S32768x512_S512x512_S32768x512_1_0_0_1_n_n.contr.Idx) :
    (dot_S32768x512_S512x512_S32768x512_1_0_0_1_n_n.rhsIdx i q 0).val = (q ⟨0, by decide⟩).val :=
  dot_S32768x512_S512x512_S32768x512_1_0_0_1_n_n.rhsIdx_val_of_single rfl i q
theorem rhs_ax1 (i : S32768x512.Idx) (q : dot_S32768x512_S512x512_S32768x512_1_0_0_1_n_n.contr.Idx) :
    (dot_S32768x512_S512x512_S32768x512_1_0_0_1_n_n.rhsIdx i q 1).val = (i 1).val := by
  unfold DotDims.rhsIdx
  rw [dif_neg (show ¬(1 : Fin S512x512.rank) ∈ dot_S32768x512_S512x512_S32768x512_1_0_0_1_n_n.rhsBatch by decide), dif_pos (show (1 : Fin S512x512.rank) ∈ dot_S32768x512_S512x512_S32768x512_1_0_0_1_n_n.rhsNonContracting by decide)]
  rfl

/-- The product at row `r`, column `j`, is the sum over the one contracted axis. -/
theorem dot_apply (x : FVec Ideal S32768x512 .f32) (w : FVec Ideal S512x512 .f32) (r : Fin 32768) (j : Fin 512) :
    Host.dotGeneral dot_S32768x512_S512x512_S32768x512_1_0_0_1_n_n none x w (ix2 r j) = ∑ q : Fin 512, x (ix2 r q) * w (ix2 q j) := by
  simp only [Host.dotGeneral]
  rw [Ideal.dotGeneral_apply, ← Equiv.sum_comp (ValueIdx.contrEquiv1 dot_S32768x512_S512x512_S32768x512_1_0_0_1_n_n 512 rfl rfl).symm]
  refine Finset.sum_congr rfl fun q _ => ?_
  have hq := ValueIdx.contrEquiv1_symm_val dot_S32768x512_S512x512_S32768x512_1_0_0_1_n_n 512 rfl rfl q
  have el : dot_S32768x512_S512x512_S32768x512_1_0_0_1_n_n.lhsIdx (ix2 r j) ((ValueIdx.contrEquiv1 dot_S32768x512_S512x512_S32768x512_1_0_0_1_n_n 512 rfl rfl).symm q) = ix2 r q := funext fun a => Fin.ext (by
    match a with
    | ⟨0, _⟩ => exact lhs_ax0 _ _
    | ⟨1, _⟩ => exact (lhs_ax1 _ _).trans hq)
  have er : dot_S32768x512_S512x512_S32768x512_1_0_0_1_n_n.rhsIdx (ix2 r j) ((ValueIdx.contrEquiv1 dot_S32768x512_S512x512_S32768x512_1_0_0_1_n_n 512 rfl rfl).symm q) = ix2 q j := funext fun a => Fin.ext (by
    match a with
    | ⟨0, _⟩ => exact (rhs_ax0 _ _).trans hq
    | ⟨1, _⟩ => exact rhs_ax1 _ _)
  rw [el, er]

/-- The table: the product regrouped into 16 capsules of 32 coordinates. -/
def tableStage (x : FVec Ideal S32768x512 .f32) (w : FVec Ideal S512x512 .f32) : FVec Ideal S32768x16x32 .f32 :=
  shapeCast S32768x16x32 (Host.dotGeneral dot_S32768x512_S512x512_S32768x512_1_0_0_1_n_n none x w) shapeCasts_S32768x512_S32768x16x32

/-- The table at row `r`, capsule `k`, coordinate `d` is the product's row at position `32·k + d`. -/
theorem tableStage_apply (x : FVec Ideal S32768x512 .f32) (w : FVec Ideal S512x512 .f32) (r : Fin 32768) (k : Fin 16) (d : Fin 32) :
    tableStage x w (ix3 r k d) = Cert.Routing.rowOf x w r k d := by
  unfold tableStage
  rw [shapeCast_apply _ shapeCasts_S32768x512_S32768x16x32 (ix3 r k d) (ix2 r (Cert.Routing.slot k d)) (by
    rw [Shape.rowMajor_val_two, Shape.rowMajor_val_three]
    show r.val * 512 + (32 * k.val + d.val) = (r.val * 16 + k.val) * 32 + d.val
    omega)]
  rw [dot_apply]
  rfl

theorem v1_eq (V0 : Valuation τ sig (Elt Ideal)) :
    res_main_v1 V0 = tableStage (V0 (Proc.devRef .tc main_arg0)) (V0 (Proc.devRef .tc main_arg1)) := rfl

/-- The generated table term read at an index. -/
theorem table_apply (V0 : Valuation τ sig (Elt Ideal)) (r : Fin 32768) (k : Fin 16) (d : Fin 32) :
    res_main_v1 V0 (ix3 r k d)
      = Cert.Routing.rowOf (V0 (Proc.devRef .tc main_arg0)) (V0 (Proc.devRef .tc main_arg1)) r k d := by
  rw [v1_eq, tableStage_apply]

/-! ## One round on a row -/

section Round
variable (b : FVec Ideal S32768x16 .f32) (u : FVec Ideal S32768x16x32 .f32) (r : Fin 32768)
  (β : Fin 16 → EReal) (υ : Fin 16 → Fin 32 → EReal)
  (hb : ∀ k, b (ix2 r k) = β k) (hu : ∀ k d, u (ix3 r k d) = υ k d)
include hb

/-- The shifted exponentials of a row whose logits are `β`. -/
theorem expStage_row (k : Fin 16) :
    expStage b (ix2 r k) = Ideal.exp (β k - Cert.Routing.rowMax β) := by
  rw [expStage_apply, hb, show (fun k' => b (ix2 r k')) = β from funext hb]

include hu

/-- The mix of a row whose logits are `β` and whose table is `υ`. -/
theorem mix_row (d : Fin 32) :
    mixStage (expStage b) u (ix2 r d) = Cert.Routing.blend υ β d := by
  rw [mixStage_apply]
  unfold Cert.Routing.blend Cert.Routing.weight
  simp only [expStage_row b r β hb, hu]

/-- The squared length of that mix. -/
theorem len_row (z : Fin 1) :
    lenStage (mixStage (expStage b) u) (ix2 r z) = Cert.Routing.energy (Cert.Routing.blend υ β) := by
  rw [lenStage_apply, show (fun d => mixStage (expStage b) u (ix2 r d)) = Cert.Routing.blend υ β from
    funext (mix_row b u r β υ hb hu)]

/-- The round's vote on that row. -/
theorem vote_row (d : Fin 32) :
    voteStage (lenStage (mixStage (expStage b) u)) (mixStage (expStage b) u) (ix2 r d) = Cert.Routing.vote υ β d := by
  rw [voteStage_apply, len_row b u r β υ hb hu, mix_row b u r β υ hb hu]
  rfl

/-- The round's next logits on that row. -/
theorem next_row (k : Fin 16) :
    nextStage b u (voteStage (lenStage (mixStage (expStage b) u)) (mixStage (expStage b) u)) (ix2 r k)
      = Cert.Routing.agree υ β k := by
  rw [nextStage_apply, hb]
  unfold Cert.Routing.agree
  simp only [hu, vote_row b u r β υ hb hu]

end Round

/-! ## The result -/

/-- The term the generated run leaves in the result buffer. -/
def resultTerm (V0 : Valuation τ sig (Elt Ideal)) : S32768x32.Idx → EReal :=
  Host.divf (mulf (broadcastInDim S32768x32 ![0, 1] bcast_S32768x1_S32768x32_0_1 (Host.divf (res_main_v86 V0) (addf (broadcastInDim S32768x1 ![] bcast_S_S32768x1 (constant S_ .f32 0x3F800000#32)) (res_main_v86 V0)))) (res_main_v83 V0)) (broadcastInDim S32768x32 ![0, 1] bcast_S32768x1_S32768x32_0_1 (addf (Host.sqrt (res_main_v86 V0)) (broadcastInDim S32768x1 ![] bcast_S_S32768x1 (constant S_ .f32 0x322BCC77#32))))

theorem resultTerm_eq : resultTerm V0 = voteStage (res_main_v86 V0) (res_main_v83 V0) := rfl

/-- Row r of the reference's result is three rounds of routing on row r of x · W. -/
theorem result_apply (V0 : Valuation τ sig (Elt Ideal)) (r : Fin 32768) (d : Fin 32) :
    resultTerm V0 (ix2 r d)
      = Cert.Routing.routed (Cert.Routing.rowOf (V0 (Proc.devRef .tc main_arg0)) (V0 (Proc.devRef .tc main_arg1)) r) d := by
  have hu := table_apply V0 r
  have h2 : ∀ k : Fin 16, res_main_v2 V0 (ix2 r k) = Cert.Routing.zeroLogits k := fun _ => rfl
  have h35 : ∀ k : Fin 16, res_main_v35 V0 (ix2 r k) = Cert.Routing.agree _ Cert.Routing.zeroLogits k := fun k => by
    rw [v35_eq, v20_eq, v17_eq, v9_eq]
    exact next_row _ _ r _ _ h2 hu k
  have h68 : ∀ k : Fin 16, res_main_v68 V0 (ix2 r k) = Cert.Routing.agree _ (Cert.Routing.agree _ Cert.Routing.zeroLogits) k := fun k => by
    rw [v68_eq, v53_eq, v50_eq, v42_eq]
    exact next_row _ _ r _ _ h35 hu k
  rw [resultTerm_eq, v86_eq, v83_eq, v75_eq]
  exact vote_row _ _ r _ _ h68 hu d

end Cert.ReferenceIdeal.RefValue

end
-- ==== Proof.lean ====
/-
  Capsule routing: the kernel against its jnp reference, over the extended reals.

  Both programs project a batch of 32768 rows, u = x · W (each row of 512 read as 16 capsule predictions of 32
  coordinates), and run three rounds of routing by agreement on every row: the softmax of 16 logits, the weighted mix
  of the predictions, its squash, and the logits' update by each capsule's agreement with the squashed vote; the
  result is the third round's vote (`Routing.routed`, Proof/Routing.lean).
  The reference regroups each row into a 16 × 32 table and sums along its axes. The kernel keeps the row flat and
  multiplies by two constant 0/1 masks the host builds first (capsule of a position, coordinate of a position): a
  product with a mask spreads a short vector over the 512 positions or gathers the positions of one capsule or one
  coordinate. Against a 0/1 mask such a product is a sum with one surviving term or a sum over one residue class, so
  both programs compute, row by row, the same function of x and W, with the same float literals in the same places;
  no law beyond `x · 0 = 0`, `x · 1 = x` and the commutativity of finite sums joins them, and the precondition is
  not needed.
  The kernel's side: the body's block is three rounds on the block's rows (Proof/Rounds.lean, Proof/Payload.lean over
  Proof/Products.lean), the masks hold what the host wrote (Proof/Masks.lean), and the 16 blocks tile the result
  (Proof/Output.lean). The reference's side: its run's composed term read at an index (Proof/RefValue.lean).
-/
import proofs.«423242_j85693187490407_3_alg».proof.Defs
import proofs.«423242_j85693187490407_3_alg».proof.Proof.Gen.Kernel
import proofs.«423242_j85693187490407_3_alg».proof.Proof.Gen.Kernel.Skeleton
import proofs.«423242_j85693187490407_3_alg».proof.Proof.Gen.Kernel.Loops
import proofs.«423242_j85693187490407_3_alg».proof.Proof.Gen.Kernel.Launch
import proofs.«423242_j85693187490407_3_alg».proof.Proof.Gen.Kernel.Points
import proofs.«423242_j85693187490407_3_alg».proof.Proof.Gen.Kernel.Frame
import proofs.«423242_j85693187490407_3_alg».proof.Proof.Gen.KernelIdeal
import proofs.«423242_j85693187490407_3_alg».proof.Proof.Gen.KernelIdeal.Skeleton
import proofs.«423242_j85693187490407_3_alg».proof.Proof.Gen.KernelIdeal.Loops
import proofs.«423242_j85693187490407_3_alg».proof.Proof.Gen.KernelIdeal.Launch
import proofs.«423242_j85693187490407_3_alg».proof.Proof.Gen.KernelIdeal.Points
import proofs.«423242_j85693187490407_3_alg».proof.Proof.Gen.KernelIdeal.Frame
import proofs.«423242_j85693187490407_3_alg».proof.Proof.Gen.ReferenceIdeal
import proofs.«423242_j85693187490407_3_alg».proof.Proof.Gen.Pre_finite_inputs
import proofs.«423242_j85693187490407_3_alg».proof.Proof.Gen.KernelIdeal.Value
import proofs.«423242_j85693187490407_3_alg».proof.Proof.Gen.ReferenceIdeal.Run
import proofs.«423242_j85693187490407_3_alg».proof.Proof.Masks
import proofs.«423242_j85693187490407_3_alg».proof.Proof.Output
import proofs.«423242_j85693187490407_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and W both programs end with row R of the result at three rounds of routing on
    row R of x · W. -/
theorem algebraic : Cert.algebraic_KernelIdeal_ReferenceIdeal := by
  intro m ρ m' ρ' _ hagree
  refine ⟨fun c => Cert.KernelIdeal.Output.routedRows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Output.run m ρ (Cert.KernelIdeal.Masks.capMask_apply m) (Cert.KernelIdeal.Masks.dimMask_apply m), ?_⟩
  refine (θ_run Cert.ReferenceIdeal.defs _ _).mono (fun _ h c => ⟨(h c).1.trans ?_, (h c).2⟩)
    (Cert.ReferenceIdeal.Value.run (F := Ideal) m' ρ')
  refine funext fun (j : Cert.ReferenceIdeal.S32768x32.Idx) => ?_
  obtain ⟨r, d, rfl⟩ : ∃ (r : Fin 32768) (d : Fin 32), j = ix2 r d := ⟨j 0, j 1, eq_ix2 j⟩
  have e0 : StableHlo.launchContents m' c (Proc.devRef .tc Cert.ReferenceIdeal.main_arg0)
      = m ((c.tc : Thread Cert.KernelIdeal.nD Cert.KernelIdeal.τ).loc Cert.KernelIdeal.main_arg0) := (hagree c).1
  have e1 : StableHlo.launchContents m' c (Proc.devRef .tc Cert.ReferenceIdeal.main_arg1)
      = m ((c.tc : Thread Cert.KernelIdeal.nD Cert.KernelIdeal.τ).loc Cert.KernelIdeal.main_arg1) := (hagree c).2
  show Cert.ReferenceIdeal.RefValue.resultTerm (StableHlo.launchContents m' c) (ix2 r d) = _
  rw [Cert.ReferenceIdeal.RefValue.result_apply, e0, e1]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
